-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x64x64 : Shape := ⟨5, ![8, 32, 32, 64, 64]⟩
abbrev S_ : Shape := ⟨0, ![]⟩

class Facts : Prop where
  bcast_S_S8x32x32x64x64 : S_.BroadcastsInDim S8x32x32x64x64 (![] : Fin 0 → Fin S8x32x32x64x64.rank)
  reducesTo_S8x32x32x64x64_S_d0_1_2_3_4 : S8x32x32x64x64.ReducesTo [0, 1, 2, 3, 4] S_
  h_S_ : 0 < S_.numel

variable [Facts]

def fn {F : FTy → Type} [FloatOps F] (main_arg0 : FVec F S8x32x32x64x64 .f32) : IVec S_ 1 :=
  let main_v0 : FVec F S8x32x32x64x64 .f32 := Host.absf main_arg0
  let main_cst : FVec F S_ .f32 := constant S_ .f32 0x7F800000#32
  let main_v1 : FVec F S8x32x32x64x64 .f32 := broadcastInDim S8x32x32x64x64 ![] bcast_S_S8x32x32x64x64 main_cst
  let main_v2 : IVec S8x32x32x64x64 1 := cmpf .olt main_v0 main_v1
  let main_c : IVec S_ 1 := constantI S_ 1 1#1
  let main_v3 : IVec S_ 1 := (fun x v => Host.reduce IntOp.andi x v reducesTo_S8x32x32x64x64_S_d0_1_2_3_4 h_S_) main_v2 main_c
  main_v3
-- ==== Kernel.lean ====
abbrev S8x32x32x64x64 : Shape := ⟨5, ![8, 32, 32, 64, 64]⟩
abbrev S8x1x32x64x64 : Shape := ⟨5, ![8, 1, 32, 64, 64]⟩
abbrev S1x32x32x64x64 : Shape := ⟨5, ![1, 32, 32, 64, 64]⟩
abbrev S8x32x1x1x1 : Shape := ⟨5, ![8, 32, 1, 1, 1]⟩
abbrev S8x32x2x64x64 : Shape := ⟨5, ![8, 32, 2, 64, 64]⟩
abbrev S8x1x2x64x64 : Shape := ⟨5, ![8, 1, 2, 64, 64]⟩
abbrev S1x32x2x64x64 : Shape := ⟨5, ![1, 32, 2, 64, 64]⟩
abbrev S8x2x64x64 : Shape := ⟨4, ![8, 2, 64, 64]⟩
abbrev S32x2x64x64 : Shape := ⟨4, ![32, 2, 64, 64]⟩
abbrev S8x32x2x64 : Shape := ⟨4, ![8, 32, 2, 64]⟩
abbrev S8x32x2x64x1 : Shape := ⟨5, ![8, 32, 2, 64, 1]⟩
abbrev S8x32x2x1 : Shape := ⟨4, ![8, 32, 2, 1]⟩
abbrev S8x32x2x1x1 : Shape := ⟨5, ![8, 32, 2, 1, 1]⟩
abbrev S8x32x1x1 : Shape := ⟨4, ![8, 32, 1, 1]⟩
abbrev S_ : Shape := ⟨0, ![]⟩
abbrev S8x32x1x64x64 : Shape := ⟨5, ![8, 32, 1, 64, 64]⟩
abbrev S8x1x1x64x64 : Shape := ⟨5, ![8, 1, 1, 64, 64]⟩
abbrev S1x32x1x64x64 : Shape := ⟨5, ![1, 32, 1, 64, 64]⟩

abbrev nBuf : Space → Nat
  | .hbm => 23
  | .vmem => 18
  | .smem => 0
  | _ => 0

abbrev bufTy : (tb : Table) → Fin (tcTables nBuf tb) → BufTy
  | .hbm, ⟨0, _⟩ => ⟨S8x32x32x64x64, .f32⟩
  | .hbm, ⟨1, _⟩ => ⟨S8x1x32x64x64, .f32⟩
  | .hbm, ⟨2, _⟩ => ⟨S1x32x32x64x64, .f32⟩
  | .hbm, ⟨3, _⟩ => ⟨S8x32x1x1x1, .f32⟩
  | .hbm, ⟨4, _⟩ => ⟨S8x32x1x1x1, .f32⟩
  | .hbm, ⟨5, _⟩ => ⟨S_, .f32⟩
  | .hbm, ⟨6, _⟩ => ⟨S8x32x1x1x1, .f32⟩
  | .hbm, ⟨7, _⟩ => ⟨S8x32x1x1x1, .f32⟩
  | .hbm, ⟨8, _⟩ => ⟨S8x32x1x1x1, .f32⟩
  | .hbm, ⟨9, _⟩ => ⟨S_, .f32⟩
  | .hbm, ⟨10, _⟩ => ⟨S8x32x1x1x1, .f32⟩
  | .hbm, ⟨11, _⟩ => ⟨S8x32x1x1x1, .f32⟩
  | .hbm, ⟨12, _⟩ => ⟨S8x32x1x1x1, .f32⟩
  | .hbm, ⟨13, _⟩ => ⟨S_, .f32⟩
  | .hbm, ⟨14, _⟩ => ⟨S8x32x1x1x1, .f32⟩
  | .hbm, ⟨15, _⟩ => ⟨S8x32x1x1x1, .f32⟩
  | .hbm, ⟨16, _⟩ => ⟨S_, .f32⟩
  | .hbm, ⟨17, _⟩ => ⟨S8x32x1x1x1, .f32⟩
  | .hbm, ⟨18, _⟩ => ⟨S8x32x1x1x1, .f32⟩
  | .hbm, ⟨19, _⟩ => ⟨S_, .f32⟩
  | .hbm, ⟨20, _⟩ => ⟨S8x32x1x1x1, .f32⟩
  | .hbm, ⟨21, _⟩ => ⟨S8x32x1x1x1, .f32⟩
  | .hbm, ⟨22, _⟩ => ⟨S8x32x32x64x64, .f32⟩
  | .local _ .vmem, ⟨0, _⟩ => ⟨S8x32x2x64x64, .f32⟩
  | .local _ .vmem, ⟨1, _⟩ => ⟨S8x32x2x64x64, .f32⟩
  | .local _ .vmem, ⟨2, _⟩ => ⟨S8x1x2x64x64, .f32⟩
  | .local _ .vmem, ⟨3, _⟩ => ⟨S8x1x2x64x64, .f32⟩
  | .local _ .vmem, ⟨4, _⟩ => ⟨S1x32x2x64x64, .f32⟩
  | .local _ .vmem, ⟨5, _⟩ => ⟨S1x32x2x64x64, .f32⟩
  | .local _ .vmem, ⟨6, _⟩ => ⟨S8x32x1x1x1, .f32⟩
  | .local _ .vmem, ⟨7, _⟩ => ⟨S8x32x1x1x1, .f32⟩
  | .local _ .vmem, ⟨8, _⟩ => ⟨S8x32x1x64x64, .f32⟩
  | .local _ .vmem, ⟨9, _⟩ => ⟨S8x32x1x64x64, .f32⟩
  | .local _ .vmem, ⟨10, _⟩ => ⟨S8x1x1x64x64, .f32⟩
  | .local _ .vmem, ⟨11, _⟩ => ⟨S8x1x1x64x64, .f32⟩
  | .local _ .vmem, ⟨12, _⟩ => ⟨S1x32x1x64x64, .f32⟩
  | .local _ .vmem, ⟨13, _⟩ => ⟨S1x32x1x64x64, .f32⟩
  | .local _ .vmem, ⟨14, _⟩ => ⟨S8x32x1x1x1, .f32⟩
  | .local _ .vmem, ⟨15, _⟩ => ⟨S8x32x1x1x1, .f32⟩
  | .local _ .vmem, ⟨16, _⟩ => ⟨S8x32x1x64x64, .f32⟩
  | .local _ .vmem, ⟨17, _⟩ => ⟨S8x32x1x64x64, .f32⟩
  | _, _ => ⟨S8x32x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

abbrev stage0_0 : Fin 2 → Memref sig .tc .vmem S8x32x2x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x2x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x2x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x32x1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x32x1x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![32], ![false]⟩

def cc1_transform_0 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc1_transform_1 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc1_transform_2 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc1_transform_3 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc1_transform_4 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc1_transform_5 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

abbrev stage1_0 : Fin 2 → Memref sig .tc .vmem S8x32x1x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x1x1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x32x1x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x32x1x1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x32x1x1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8x32x1x64x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S8x32x2x64x64_S8x32x2x64x64_0_0_0_0_0 : ∀ a, (![0, 0, 0, 0, 0] : Fin 5 → Nat) a + S8x32x2x64x64.size a ≤ S8x32x2x64x64.size a
  h_S8x32x2x64x64 : 0 < S8x32x2x64x64.numel
  reduces_S8x32x2x64x64_S8x2x64x64 : S8x32x2x64x64.Reduces [1] S8x2x64x64
  shapeCasts_S8x2x64x64_S8x1x2x64x64 : S8x2x64x64.ShapeCasts S8x1x2x64x64
  inb_S8x1x2x64x64_S8x1x2x64x64_0_0_0_0_0 : ∀ a, (![0, 0, 0, 0, 0] : Fin 5 → Nat) a + S8x1x2x64x64.size a ≤ S8x1x2x64x64.size a
  h_S8x1x2x64x64 : 0 < S8x1x2x64x64.numel
  reduces_S8x32x2x64x64_S32x2x64x64 : S8x32x2x64x64.Reduces [0] S32x2x64x64
  shapeCasts_S32x2x64x64_S1x32x2x64x64 : S32x2x64x64.ShapeCasts S1x32x2x64x64
  inb_S1x32x2x64x64_S1x32x2x64x64_0_0_0_0_0 : ∀ a, (![0, 0, 0, 0, 0] : Fin 5 → Nat) a + S1x32x2x64x64.size a ≤ S1x32x2x64x64.size a
  h_S1x32x2x64x64 : 0 < S1x32x2x64x64.numel
  reduces_S8x32x2x64x64_S8x32x2x64 : S8x32x2x64x64.Reduces [4] S8x32x2x64
  shapeCasts_S8x32x2x64_S8x32x2x64x1 : S8x32x2x64.ShapeCasts S8x32x2x64x1
  reduces_S8x32x2x64x1_S8x32x2x1 : S8x32x2x64x1.Reduces [3] S8x32x2x1
  shapeCasts_S8x32x2x1_S8x32x2x1x1 : S8x32x2x1.ShapeCasts S8x32x2x1x1
  reduces_S8x32x2x1x1_S8x32x1x1 : S8x32x2x1x1.Reduces [2] S8x32x1x1
  shapeCasts_S8x32x1x1_S8x32x1x1x1 : S8x32x1x1.ShapeCasts S8x32x1x1x1
  inb_S8x32x1x1x1_S8x32x1x1x1_0_0_0_0_0 : ∀ a, (![0, 0, 0, 0, 0] : Fin 5 → Nat) a + S8x32x1x1x1.size a ≤ S8x32x1x1x1.size a
  h_S8x32x1x1x1 : 0 < S8x32x1x1x1.numel
  shapeCasts_S8x32x1x1x1_S8x32x1x1x1 : S8x32x1x1x1.ShapeCasts S8x32x1x1x1
  bcast_S_S8x32x1x1x1 : S_.BroadcastsInDim S8x32x1x1x1 (![] : Fin 0 → Fin S8x32x1x1x1.rank)
  inb_S8x32x1x64x64_S8x32x1x64x64_0_0_0_0_0 : ∀ a, (![0, 0, 0, 0, 0] : Fin 5 → Nat) a + S8x32x1x64x64.size a ≤ S8x32x1x64x64.size a
  h_S8x32x1x64x64 : 0 < S8x32x1x64x64.numel
  inb_S8x1x1x64x64_S8x1x1x64x64_0_0_0_0_0 : ∀ a, (![0, 0, 0, 0, 0] : Fin 5 → Nat) a + S8x1x1x64x64.size a ≤ S8x1x1x64x64.size a
  h_S8x1x1x64x64 : 0 < S8x1x1x64x64.numel
  shapeCasts_S8x1x1x64x64_S8x1x1x64x64 : S8x1x1x64x64.ShapeCasts S8x1x1x64x64
  inb_S1x32x1x64x64_S1x32x1x64x64_0_0_0_0_0 : ∀ a, (![0, 0, 0, 0, 0] : Fin 5 → Nat) a + S1x32x1x64x64.size a ≤ S1x32x1x64x64.size a
  h_S1x32x1x64x64 : 0 < S1x32x1x64x64.numel
  shapeCasts_S1x32x1x64x64_S1x32x1x64x64 : S1x32x1x64x64.ShapeCasts S1x32x1x64x64
  broadcasts_S8x32x1x1x1_S8x32x1x64x64 : S8x32x1x1x1.Broadcasts S8x32x1x64x64
  broadcasts_S8x1x1x64x64_S8x32x1x64x64 : S8x1x1x64x64.Broadcasts S8x32x1x64x64
  broadcasts_S1x32x1x64x64_S8x32x1x64x64 : S1x32x1x64x64.Broadcasts S8x32x1x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x2x64x64.size a ≤ S8x32x32x64x64.size a
  hwx0_0 : ∀ i : grid0.Coords, EltTy.bits .f32 = 32 ∨ (Rect.block (s := S8x32x32x64x64) S8x32x2x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x2x64x64.size a ≤ S8x1x32x64x64.size a
  hwx0_1 : ∀ i : grid0.Coords, EltTy.bits .f32 = 32 ∨ (Rect.block (s := S8x1x32x64x64) S8x1x2x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x2x64x64.size a ≤ S1x32x32x64x64.size a
  hwx0_2 : ∀ i : grid0.Coords, EltTy.bits .f32 = 32 ∨ (Rect.block (s := S1x32x32x64x64) S1x32x2x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x32x1x1x1.size a ≤ S8x32x1x1x1.size a
  hwx0_3 : ∀ i : grid0.Coords, EltTy.bits .f32 = 32 ∨ (Rect.block (s := S8x32x1x1x1) S8x32x1x1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x32x1x1x1.size a ≤ S8x32x1x1x1.size a
  hwx0_4 : ∀ i : grid0.Coords, EltTy.bits .f32 = 32 ∨ (Rect.block (s := S8x32x1x1x1) S8x32x1x1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x32x1x64x64.size a ≤ S8x32x32x64x64.size a
  hwx1_0 : ∀ i : grid1.Coords, EltTy.bits .f32 = 32 ∨ (Rect.block (s := S8x32x32x64x64) S8x32x1x64x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x1x1x64x64.size a ≤ S8x1x32x64x64.size a
  hwx1_1 : ∀ i : grid1.Coords, EltTy.bits .f32 = 32 ∨ (Rect.block (s := S8x1x32x64x64) S8x1x1x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x1x64x64.size a ≤ S1x32x32x64x64.size a
  hwx1_2 : ∀ i : grid1.Coords, EltTy.bits .f32 = 32 ∨ (Rect.block (s := S1x32x32x64x64) S1x32x1x64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x32x1x1x1.size a ≤ S8x32x1x1x1.size a
  hwx1_3 : ∀ i : grid1.Coords, EltTy.bits .f32 = 32 ∨ (Rect.block (s := S8x32x1x1x1) S8x32x1x1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x32x1x1x1.size a ≤ S8x32x1x1x1.size a
  hwx1_4 : ∀ i : grid1.Coords, EltTy.bits .f32 = 32 ∨ (Rect.block (s := S8x32x1x1x1) S8x32x1x1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x32x1x64x64.size a ≤ S8x32x32x64x64.size a
  hwx1_5 : ∀ i : grid1.Coords, EltTy.bits .f32 = 32 ∨ (Rect.block (s := S8x32x32x64x64) S8x32x1x64x64.size (cc1_transform_5 i) (hinb1_5 i)).WholeWords (EltTy.packing .f32)

variable [Facts₀]

abbrev win0_0 : Pipeline.Window sig grid0 :=
  Pipeline.Window.ofSpec (Memref.whole main_arg0) S8x32x2x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x1x2x64x64.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x32x2x64x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S8x32x1x1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S8x32x1x1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S8x32x1x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S8x1x1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x32x1x64x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S8x32x1x1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S8x32x1x1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S8x32x1x64x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x32x32x64x64 : Shape := ⟨5, ![8, 32, 32, 64, 64]⟩
abbrev S_ : Shape := ⟨0, ![]⟩
abbrev S8x32x64x64 : Shape := ⟨4, ![8, 32, 64, 64]⟩
abbrev S8x1x32x64x64 : Shape := ⟨5, ![8, 1, 32, 64, 64]⟩
abbrev S32x32x64x64 : Shape := ⟨4, ![32, 32, 64, 64]⟩
abbrev S1x32x32x64x64 : Shape := ⟨5, ![1, 32, 32, 64, 64]⟩
abbrev S8x32 : Shape := ⟨2, ![8, 32]⟩
abbrev S8x32x1x1x1 : Shape := ⟨5, ![8, 32, 1, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S8x32x32x64x64, .f32⟩
  | .hbm, ⟨1, _⟩ => ⟨S_, .f32⟩
  | .hbm, ⟨2, _⟩ => ⟨S8x32x64x64, .f32⟩
  | .hbm, ⟨3, _⟩ => ⟨S8x1x32x64x64, .f32⟩
  | .hbm, ⟨4, _⟩ => ⟨S_, .f32⟩
  | .hbm, ⟨5, _⟩ => ⟨S8x1x32x64x64, .f32⟩
  | .hbm, ⟨6, _⟩ => ⟨S8x1x32x64x64, .f32⟩
  | .hbm, ⟨7, _⟩ => ⟨S_, .f32⟩
  | .hbm, ⟨8, _⟩ => ⟨S32x32x64x64, .f32⟩
  | .hbm, ⟨9, _⟩ => ⟨S1x32x32x64x64, .f32⟩
  | .hbm, ⟨10, _⟩ => ⟨S_, .f32⟩
  | .hbm, ⟨11, _⟩ => ⟨S1x32x32x64x64, .f32⟩
  | .hbm, ⟨12, _⟩ => ⟨S1x32x32x64x64, .f32⟩
  | .hbm, ⟨13, _⟩ => ⟨S_, .f32⟩
  | .hbm, ⟨14, _⟩ => ⟨S8x32, .f32⟩
  | .hbm, ⟨15, _⟩ => ⟨S8x32x1x1x1, .f32⟩
  | .hbm, ⟨16, _⟩ => ⟨S_, .f32⟩
  | .hbm, ⟨17, _⟩ => ⟨S8x32x1x1x1, .f32⟩
  | .hbm, ⟨18, _⟩ => ⟨S8x32x1x1x1, .f32⟩
  | .hbm, ⟨19, _⟩ => ⟨S8x32x32x64x64, .f32⟩
  | .hbm, ⟨20, _⟩ => ⟨S8x32x32x64x64, .f32⟩
  | .hbm, ⟨21, _⟩ => ⟨S8x32x32x64x64, .f32⟩
  | .hbm, ⟨22, _⟩ => ⟨S_, .f32⟩
  | .hbm, ⟨23, _⟩ => ⟨S8x32, .f32⟩
  | .hbm, ⟨24, _⟩ => ⟨S8x32x1x1x1, .f32⟩
  | .hbm, ⟨25, _⟩ => ⟨S_, .f32⟩
  | .hbm, ⟨26, _⟩ => ⟨S8x32x1x1x1, .f32⟩
  | .hbm, ⟨27, _⟩ => ⟨S8x32x1x1x1, .f32⟩
  | .hbm, ⟨28, _⟩ => ⟨S_, .f32⟩
  | .hbm, ⟨29, _⟩ => ⟨S8x32x1x1x1, .f32⟩
  | .hbm, ⟨30, _⟩ => ⟨S8x32x1x1x1, .f32⟩
  | .hbm, ⟨31, _⟩ => ⟨S_, .f32⟩
  | .hbm, ⟨32, _⟩ => ⟨S8x32x1x1x1, .f32⟩
  | .hbm, ⟨33, _⟩ => ⟨S8x32x1x1x1, .f32⟩
  | .hbm, ⟨34, _⟩ => ⟨S8x32x32x64x64, .f32⟩
  | .hbm, ⟨35, _⟩ => ⟨S8x32x32x64x64, .f32⟩
  | .hbm, ⟨36, _⟩ => ⟨S_, .f32⟩
  | .hbm, ⟨37, _⟩ => ⟨S8x32x32x64x64, .f32⟩
  | .hbm, ⟨38, _⟩ => ⟨S8x32x32x64x64, .f32⟩
  | .hbm, ⟨39, _⟩ => ⟨S8x32x32x64x64, .f32⟩
  | .hbm, ⟨40, _⟩ => ⟨S8x32x32x64x64, .f32⟩
  | .hbm, ⟨41, _⟩ => ⟨S_, .f32⟩
  | .hbm, ⟨42, _⟩ => ⟨S8x32x32x64x64, .f32⟩
  | .hbm, ⟨43, _⟩ => ⟨S8x32x32x64x64, .f32⟩
  | .hbm, ⟨44, _⟩ => ⟨S_, .f32⟩
  | .hbm, ⟨45, _⟩ => ⟨S8x32x32x64x64, .f32⟩
  | .hbm, ⟨46, _⟩ => ⟨S8x32x32x64x64, .f32⟩
  | .hbm, ⟨47, _⟩ => ⟨S8x32x32x64x64, .f32⟩
  | .hbm, ⟨48, _⟩ => ⟨S8x32x32x64x64, .f32⟩
  | .hbm, ⟨49, _⟩ => ⟨S8x32x32x64x64, .f32⟩
  | .hbm, ⟨50, _⟩ => ⟨S8x32x32x64x64, .f32⟩
  | .hbm, ⟨51, _⟩ => ⟨S8x32x32x64x64, .f32⟩
  | .hbm, ⟨52, _⟩ => ⟨S8x32x32x64x64, .f32⟩
  | .hbm, ⟨53, _⟩ => ⟨S8x32x32x64x64, .f32⟩
  | .hbm, ⟨54, _⟩ => ⟨S_, .f32⟩
  | .hbm, ⟨55, _⟩ => ⟨S8x32x32x64x64, .f32⟩
  | .hbm, ⟨56, _⟩ => ⟨S8x32x32x64x64, .f32⟩
  | .hbm, ⟨57, _⟩ => ⟨S_, .f32⟩
  | .hbm, ⟨58, _⟩ => ⟨S8x32x32x64x64, .f32⟩
  | .hbm, ⟨59, _⟩ => ⟨S8x32x32x64x64, .f32⟩
  | .hbm, ⟨60, _⟩ => ⟨S8x32x32x64x64, .f32⟩
  | _, _ => ⟨S8x32x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_v9 : Ref sig .tc := ⟨.hbm, 15, rfl⟩
abbrev main_cst_4 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_5 : Ref sig .tc := ⟨.hbm, 22, rfl⟩
abbrev main_v15 : Ref sig .tc := ⟨.hbm, 23, rfl⟩
abbrev main_v16 : Ref sig .tc := ⟨.hbm, 24, rfl⟩
abbrev main_cst_6 : Ref sig .tc := ⟨.hbm, 25, rfl⟩
abbrev main_v17 : Ref sig .tc := ⟨.hbm, 26, rfl⟩
abbrev main_v18 : Ref sig .tc := ⟨.hbm, 27, rfl⟩
abbrev main_cst_7 : Ref sig .tc := ⟨.hbm, 28, rfl⟩
abbrev main_v19 : Ref sig .tc := ⟨.hbm, 29, rfl⟩
abbrev main_v20 : Ref sig .tc := ⟨.hbm, 30, rfl⟩
abbrev main_cst_8 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_9 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_10 : Ref sig .tc := ⟨.hbm, 41, rfl⟩
abbrev main_v29 : Ref sig .tc := ⟨.hbm, 42, rfl⟩
abbrev main_v30 : Ref sig .tc := ⟨.hbm, 43, rfl⟩
abbrev main_cst_11 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_12 : Ref sig .tc := ⟨.hbm, 54, rfl⟩
abbrev main_v40 : Ref sig .tc := ⟨.hbm, 55, rfl⟩
abbrev main_v41 : Ref sig .tc := ⟨.hbm, 56, rfl⟩
abbrev main_cst_13 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  reducesTo_S8x32x32x64x64_S8x32x64x64_d1 : S8x32x32x64x64.ReducesTo [1] S8x32x64x64
  h_S_ : 0 < S_.numel
  bcast_S8x32x64x64_S8x1x32x64x64_0_2_3_4 : S8x32x64x64.BroadcastsInDim S8x1x32x64x64 (![0, 2, 3, 4] : Fin 4 → Fin S8x1x32x64x64.rank)
  bcast_S_S8x1x32x64x64 : S_.BroadcastsInDim S8x1x32x64x64 (![] : Fin 0 → Fin S8x1x32x64x64.rank)
  reducesTo_S8x32x32x64x64_S32x32x64x64_d0 : S8x32x32x64x64.ReducesTo [0] S32x32x64x64
  bcast_S32x32x64x64_S1x32x32x64x64_1_2_3_4 : S32x32x64x64.BroadcastsInDim S1x32x32x64x64 (![1, 2, 3, 4] : Fin 4 → Fin S1x32x32x64x64.rank)
  bcast_S_S1x32x32x64x64 : S_.BroadcastsInDim S1x32x32x64x64 (![] : Fin 0 → Fin S1x32x32x64x64.rank)
  reducesTo_S8x32x32x64x64_S8x32_d2_3_4 : S8x32x32x64x64.ReducesTo [2, 3, 4] S8x32
  bcast_S8x32_S8x32x1x1x1_0_1 : S8x32.BroadcastsInDim S8x32x1x1x1 (![0, 1] : Fin 2 → Fin S8x32x1x1x1.rank)
  bcast_S_S8x32x1x1x1 : S_.BroadcastsInDim S8x32x1x1x1 (![] : Fin 0 → Fin S8x32x1x1x1.rank)
  bcast_S8x32x1x1x1_S8x32x32x64x64_0_1_2_3_4 : S8x32x1x1x1.BroadcastsInDim S8x32x32x64x64 (![0, 1, 2, 3, 4] : Fin 5 → Fin S8x32x32x64x64.rank)
  bcast_S_S8x32x32x64x64 : S_.BroadcastsInDim S8x32x32x64x64 (![] : Fin 0 → Fin S8x32x32x64x64.rank)
  bcast_S8x1x32x64x64_S8x32x32x64x64_0_1_2_3_4 : S8x1x32x64x64.BroadcastsInDim S8x32x32x64x64 (![0, 1, 2, 3, 4] : Fin 5 → Fin S8x32x32x64x64.rank)
  bcast_S1x32x32x64x64_S8x32x32x64x64_0_1_2_3_4 : S1x32x32x64x64.BroadcastsInDim S8x32x32x64x64 (![0, 1, 2, 3, 4] : Fin 5 → Fin S8x32x32x64x64.rank)

variable [Facts₀]

class Facts : Prop extends Facts₀ where

variable [Facts]
-- ==== Proof.Spec.lean ====
/-
  The mathematics both programs compute, over the extended reals, for an input `X` of shape [8, 32, 32, 64, 64]
  (batch b, channel c, time t, rows h, columns w).

  Three families of sums of `X`: over the channels (one per (b, t, h, w)), over the batch (one per (c, t, h, w)) and
  over time and space (one per (b, c)).  From them: the per-(b, c) mean `mu`; a per-(b, c) denominator, which the
  reference takes from the sum of squared deviations `Σ (x − mu)²` and the kernel from `Σ x² − n · mu²`; the channel
  mean `z` and the batch mean `s`, which the reference divides out and the kernel multiplies by the reciprocal;
  and the gated value `x · σ(y) · σ(y · z · s)` with `y = (x − mu)² / denom + 1/2` and `σ` the logistic function.
  Float literals stay the words the programs print; their values are read only where a law needs them.
-/
import Idealize.ShloMosaic.PureOps.Ideal
import Idealize.ShloMosaic.Lib.ValueIdx

noncomputable section

namespace Cert.Spec

open Idealize.ShloMosaic Idealize.ShloMosaic.ValueIdx

/-- The input's shape. -/
abbrev SX : Shape := ⟨5, ![8, 32, 32, 64, 64]⟩

/-- The literals, as printed: 131072 = 32·64·64, 4095 = 64·64 − 1, 1e-4 (rounded to f32), 4, 1/2, 32, 8, 1/32, 1/8, 1. -/
def nFull : EReal := Ideal.ofBits .f32 0x48000000#32
def nForm : EReal := Ideal.ofBits .f32 0x457FF000#32
def eps : EReal := Ideal.ofBits .f32 0x38D1B717#32
def four : EReal := Ideal.ofBits .f32 0x40800000#32
def half : EReal := Ideal.ofBits .f32 0x3F000000#32
def c32 : EReal := Ideal.ofBits .f32 0x42000000#32
def c8 : EReal := Ideal.ofBits .f32 0x41000000#32
def inv32 : EReal := Ideal.ofBits .f32 0x3D000000#32
def inv8 : EReal := Ideal.ofBits .f32 0x3E000000#32

/-- The sum over the 32 channels at (b, t, h, w). -/
def sumC (X : SX.Idx → EReal) (b : Fin 8) (t : Fin 32) (h w : Fin 64) : EReal := ∑ c : Fin 32, X (ix5 b c t h w)
/-- The sum over the 8 batch entries at (c, t, h, w). -/
def sumB (X : SX.Idx → EReal) (c : Fin 32) (t : Fin 32) (h w : Fin 64) : EReal := ∑ b : Fin 8, X (ix5 b c t h w)
/-- The sum over time, rows and columns at (b, c). -/
def sumTHW (X : SX.Idx → EReal) (b : Fin 8) (c : Fin 32) : EReal :=
  ∑ t : Fin 32, ∑ h : Fin 64, ∑ w : Fin 64, X (ix5 b c t h w)

/-- The entrywise square. -/
def sqr (X : SX.Idx → EReal) : SX.Idx → EReal := fun i => X i * X i

/-- The mean over time and space at (b, c): the sum divided by 131072. -/
def mu (X : SX.Idx → EReal) (b : Fin 8) (c : Fin 32) : EReal := Ideal.div (sumTHW X b c) nFull

/-- The reference's denominator at (b, c): 4 · (Σ (x − mu)² / 4095 + 1e-4). -/
def denR (X : SX.Idx → EReal) (b : Fin 8) (c : Fin 32) : EReal :=
  four * (Ideal.div (sumTHW (fun i => (X i - mu X b c) * (X i - mu X b c)) b c) nForm + eps)
/-- The kernel's denominator at (b, c): 4 · ((Σ x² − 131072 · mu²) / 4095 + 1e-4). -/
def denK (X : SX.Idx → EReal) (b : Fin 8) (c : Fin 32) : EReal :=
  four * (Ideal.div (sumTHW (sqr X) b c - nFull * (mu X b c * mu X b c)) nForm + eps)

/-- The channel mean: the reference divides by 32, the kernel multiplies by 1/32. -/
def zR (X : SX.Idx → EReal) (b : Fin 8) (t : Fin 32) (h w : Fin 64) : EReal := Ideal.div (sumC X b t h w) c32
def zK (X : SX.Idx → EReal) (b : Fin 8) (t : Fin 32) (h w : Fin 64) : EReal := sumC X b t h w * inv32
/-- The batch mean: the reference divides by 8, the kernel multiplies by 1/8. -/
def sR (X : SX.Idx → EReal) (c : Fin 32) (t : Fin 32) (h w : Fin 64) : EReal := Ideal.div (sumB X c t h w) c8
def sK (X : SX.Idx → EReal) (c : Fin 32) (t : Fin 32) (h w : Fin 64) : EReal := sumB X c t h w * inv8

/-- The gated value: with `y = (x − mu)² / den + 1/2`, it is `(x · σ(y)) · σ((y · z) · s)`. -/
def gate (x m d z s : EReal) : EReal :=
  (x * Ideal.logistic (Ideal.div ((x - m) * (x - m)) d + half))
    * Ideal.logistic (((Ideal.div ((x - m) * (x - m)) d + half) * z) * s)

/-- The gating pass as a function of the five arrays it reads: the input, the channel sums [8, 1, 32, 64, 64], the batch sums
    [1, 32, 32, 64, 64], and the per-(b, c) mean and denominator [8, 32, 1, 1, 1]; the sums are scaled by 1/32 and 1/8. -/
def fusePt (X : SX.Idx → EReal) (Z : (⟨5, ![8, 1, 32, 64, 64]⟩ : Shape).Idx → EReal)
    (S : (⟨5, ![1, 32, 32, 64, 64]⟩ : Shape).Idx → EReal) (M D : (⟨5, ![8, 32, 1, 1, 1]⟩ : Shape).Idx → EReal)
    (i : SX.Idx) : EReal :=
  gate (X i) (M (ix5 (i 0) (i 1) (0 : Fin 1) (0 : Fin 1) (0 : Fin 1))) (D (ix5 (i 0) (i 1) (0 : Fin 1) (0 : Fin 1) (0 : Fin 1)))
    (Z (ix5 (i 0) (0 : Fin 1) (i 2) (i 3) (i 4)) * inv32) (S (ix5 (0 : Fin 1) (i 1) (i 2) (i 3) (i 4)) * inv8)

/-- The reference's result at (b, c, t, h, w). -/
def refPt (X : SX.Idx → EReal) (b : Fin 8) (c : Fin 32) (t : Fin 32) (h w : Fin 64) : EReal :=
  gate (X (ix5 b c t h w)) (mu X b c) (denR X b c) (zR X b t h w) (sR X c t h w)
/-- The kernel's result at (b, c, t, h, w). -/
def kerPt (X : SX.Idx → EReal) (b : Fin 8) (c : Fin 32) (t : Fin 32) (h w : Fin 64) : EReal :=
  gate (X (ix5 b c t h w)) (mu X b c) (denK X b c) (zK X b t h w) (sK X c t h w)

/-- The reference's result array. -/
def refOut (X : SX.Idx → EReal) : SX.Idx → EReal := fun i => refPt X (i 0) (i 1) (i 2) (i 3) (i 4)
/-- The kernel's result array. -/
def kerOut (X : SX.Idx → EReal) : SX.Idx → EReal := fun i => kerPt X (i 0) (i 1) (i 2) (i 3) (i 4)

end Cert.Spec

end
-- ==== Proof.HostOps.lean ====
/-
  The host operations between the two regions: from the two accumulators they compute the per-(b, c) mean (the sum divided
  by 131072) and the denominator 4 · ((Σ x² − 131072 · mean²) / 4095 + 1e-4); they write neither the input nor the channel
  and batch sums, which region 1 therefore finds as region 0 left them.
-/
import proofs.«173700_j35622458753953_1_alg».proof.Proof.Gen.KernelIdeal.Frame
import proofs.«173700_j35622458753953_1_alg».proof.Proof.Spec
import Idealize.ShloMosaic.Lib.StableHlo.Run
import Idealize.ShloMosaic.Lib.ValueIdx
import Idealize.ShloMosaic.PureOps.Ideal.Laws

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The two accumulators as region 0 leaves them, at their literal type. -/
abbrev musumArr (c : Dev nD) : S8x32x1x1x1.Idx → EReal := V1 m ρ c main_v0_2
abbrev sqsumArr (c : Dev nD) : S8x32x1x1x1.Idx → EReal := V1 m ρ c main_v0_3

/-- The mean array: the sum accumulator divided by 131072. -/
theorem V2_v2 (c : Dev nD) : V2 m ρ c main_v2 = Host.divf (V1 m ρ c main_v0_2) (broadcastInDim S8x32x1x1x1 ![] bcast_S_S8x32x1x1x1 (constant (F := Ideal) S_ .f32 0x48000000#32)) := by
  show StableHlo.after hostOps1 (W1 m ρ c) (Proc.devRef .tc main_v2) = _
  after_results

/-- The denominator array: 4 · ((the square accumulator − 131072 · mean²) / 4095 + 1e-4). -/
theorem V2_v12 (c : Dev nD) : V2 m ρ c main_v12
    = mulf (broadcastInDim S8x32x1x1x1 ![] bcast_S_S8x32x1x1x1 (constant (F := Ideal) S_ .f32 0x40800000#32))
        (addf (Host.divf (subf (V1 m ρ c main_v0_3)
            (mulf (broadcastInDim S8x32x1x1x1 ![] bcast_S_S8x32x1x1x1 (constant (F := Ideal) S_ .f32 0x48000000#32))
              (mulf (Host.divf (V1 m ρ c main_v0_2) (broadcastInDim S8x32x1x1x1 ![] bcast_S_S8x32x1x1x1 (constant (F := Ideal) S_ .f32 0x48000000#32)))
                (Host.divf (V1 m ρ c main_v0_2) (broadcastInDim S8x32x1x1x1 ![] bcast_S_S8x32x1x1x1 (constant (F := Ideal) S_ .f32 0x48000000#32))))))
          (broadcastInDim S8x32x1x1x1 ![] bcast_S_S8x32x1x1x1 (constant (F := Ideal) S_ .f32 0x457FF000#32)))
        (broadcastInDim S8x32x1x1x1 ![] bcast_S_S8x32x1x1x1 (constant (F := Ideal) S_ .f32 0x38D1B717#32))) := by
  show StableHlo.after hostOps1 (W1 m ρ c) (Proc.devRef .tc main_v12) = _
  after_results

/-- The host operations leave the input, the channel sums and the batch sums alone. -/
theorem V2_arg0 (c : Dev nD) : V2 m ρ c main_arg0 = V1 m ρ c main_arg0 := by
  show StableHlo.after hostOps1 (W1 m ρ c) (Proc.devRef .tc main_arg0) = _
  after_results
theorem V2_v0_0 (c : Dev nD) : V2 m ρ c main_v0_0 = V1 m ρ c main_v0_0 := by
  show StableHlo.after hostOps1 (W1 m ρ c) (Proc.devRef .tc main_v0_0) = _
  after_results
theorem V2_v0_1 (c : Dev nD) : V2 m ρ c main_v0_1 = V1 m ρ c main_v0_1 := by
  show StableHlo.after hostOps1 (W1 m ρ c) (Proc.devRef .tc main_v0_1) = _
  after_results

/-- The mean array read at (b, c). -/
theorem V2_v2_apply (c : Dev nD) (b : Fin 8) (k : Fin 32) :
    V2 m ρ c main_v2 (ix5 b k (0 : Fin 1) (0 : Fin 1) (0 : Fin 1))
      = Ideal.div (musumArr m ρ c (ix5 b k (0 : Fin 1) (0 : Fin 1) (0 : Fin 1))) Cert.Spec.nFull := by
  rw [V2_v2]
  rfl

/-- The denominator array read at (b, c). -/
theorem V2_v12_apply (c : Dev nD) (b : Fin 8) (k : Fin 32) :
    V2 m ρ c main_v12 (ix5 b k (0 : Fin 1) (0 : Fin 1) (0 : Fin 1))
      = Cert.Spec.four * (Ideal.div (sqsumArr m ρ c (ix5 b k (0 : Fin 1) (0 : Fin 1) (0 : Fin 1))
          - Cert.Spec.nFull * (Ideal.div (musumArr m ρ c (ix5 b k (0 : Fin 1) (0 : Fin 1) (0 : Fin 1))) Cert.Spec.nFull
            * Ideal.div (musumArr m ρ c (ix5 b k (0 : Fin 1) (0 : Fin 1) (0 : Fin 1))) Cert.Spec.nFull)) Cert.Spec.nForm
        + Cert.Spec.eps) := by
  rw [V2_v12]
  rfl

end Cert.KernelIdeal.Val

end
-- ==== Proof.StatsPieces.lean ====
/-
  Region 0 (the statistics pass), one grid point at a time.

  What the body leaves in each of its four output buffers, in both control cases (the first point, which resets the two
  accumulators before adding, and every later point, which adds to what the point before left), as the skeleton's
  payloads of the input block and, for the accumulators, of what they held.
-/
import proofs.«173700_j35622458753953_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val

open Idealize.ShloMosaic Idealize.ShloMosaic.TcCoe Idealize.SL.Sem Idealize.ShloMosaic.ValueIdx
open Cert.KernelIdeal Cert.KernelIdeal.Gen

/-! ## The found pieces are the payloads (any float instance) -/

section Pieces
variable {F : FTy → Type} [FloatOps F]

/-- The all-zero offset of a five-axis block, as the constant function. -/
private theorem hz : (![0, 0, 0, 0, 0] : Fin 5 → Nat) = fun _ => 0 := funext fun a => by fin_cases a <;> rfl

theorem pieceA_1 (c : Dev nD) (i : grid0.Coords) (a1 : Memref sig .tc .vmem S8x32x2x64x64 .f32) (h1 : a1.IsWhole) (a2 : Memref sig .tc .vmem S8x1x2x64x64 .f32) (h2 : a2.IsWhole) (a3 : Memref sig .tc .vmem S1x32x2x64x64 .f32) (h3 : a3.IsWhole) (a4 : Memref sig .tc .vmem S8x32x1x1x1 .f32) (h4 : a4.IsWhole) (a5 : Memref sig .tc .vmem S8x32x1x1x1 .f32) (h5 : a5.IsWhole) (hc : cond0_0 i) (x0 : Vec F S8x32x2x64x64 .f32) :
    out0_A_1 c i a1 h1 a2 h2 a3 h3 a4 h4 a5 h5 hc x0 = k0_pay2 x0 := by
  unfold out0_A_1
  rw [View.read_writes_eq_canon _ _ _ (cover0_A_1 c i a1 h1 a2 h2 a3 h3 a4 h4 a5 h5 hc x0)]
  unfold kernelRun0_A
  dsimp only
  sl_unfold_words
  rw [View.canon_unit_zero hz]
  simp only [View.readAt_eq_ld, h1.read_unread, View.ld_unit_zero (S := S8x32x2x64x64) hz]
theorem pieceA_2 (c : Dev nD) (i : grid0.Coords) (a1 : Memref sig .tc .vmem S8x32x2x64x64 .f32) (h1 : a1.IsWhole) (a2 : Memref sig .tc .vmem S8x1x2x64x64 .f32) (h2 : a2.IsWhole) (a3 : Memref sig .tc .vmem S1x32x2x64x64 .f32) (h3 : a3.IsWhole) (a4 : Memref sig .tc .vmem S8x32x1x1x1 .f32) (h4 : a4.IsWhole) (a5 : Memref sig .tc .vmem S8x32x1x1x1 .f32) (h5 : a5.IsWhole) (hc : cond0_0 i) (x0 : Vec F S8x32x2x64x64 .f32) :
    out0_A_2 c i a1 h1 a2 h2 a3 h3 a4 h4 a5 h5 hc x0 = k0_pay3 x0 := by
  unfold out0_A_2
  rw [View.read_writes_eq_canon _ _ _ (cover0_A_2 c i a1 h1 a2 h2 a3 h3 a4 h4 a5 h5 hc x0)]
  unfold kernelRun0_A
  dsimp only
  sl_unfold_words
  rw [View.canon_unit_zero hz]
  simp only [View.readAt_eq_ld, h1.read_unread, View.ld_unit_zero (S := S8x32x2x64x64) hz]
/-- At the first point the mean accumulator is reset to zero and the block's sum added to it. -/
theorem pieceA_3 (c : Dev nD) (i : grid0.Coords) (a1 : Memref sig .tc .vmem S8x32x2x64x64 .f32) (h1 : a1.IsWhole) (a2 : Memref sig .tc .vmem S8x1x2x64x64 .f32) (h2 : a2.IsWhole) (a3 : Memref sig .tc .vmem S1x32x2x64x64 .f32) (h3 : a3.IsWhole) (a4 : Memref sig .tc .vmem S8x32x1x1x1 .f32) (h4 : a4.IsWhole) (a5 : Memref sig .tc .vmem S8x32x1x1x1 .f32) (h5 : a5.IsWhole) (hc : cond0_0 i) (x0 : Vec F S8x32x2x64x64 .f32) :
    out0_A_3 c i a1 h1 a2 h2 a3 h3 a4 h4 a5 h5 hc x0 = k0_pay7 x0 (k0_pay5 (F := F)) := by
  unfold out0_A_3
  rw [View.read_writes_eq_canon _ _ _ (cover0_A_3 c i a1 h1 a2 h2 a3 h3 a4 h4 a5 h5 hc x0)]
  unfold kernelRun0_A
  dsimp only
  sl_unfold_words
  rw [View.canon_cons_unit_zero (S := S8x32x1x1x1) hz, View.readCov_unit_zero (S := S8x32x1x1x1) _ hz]
  simp only [View.readAt_eq_ld, h1.read_unread, View.ld_unit_zero (S := S8x32x2x64x64) hz]
/-- At the first point the square accumulator is reset to zero and the block's sum of squares added to it. -/
theorem pieceA_4 (c : Dev nD) (i : grid0.Coords) (a1 : Memref sig .tc .vmem S8x32x2x64x64 .f32) (h1 : a1.IsWhole) (a2 : Memref sig .tc .vmem S8x1x2x64x64 .f32) (h2 : a2.IsWhole) (a3 : Memref sig .tc .vmem S1x32x2x64x64 .f32) (h3 : a3.IsWhole) (a4 : Memref sig .tc .vmem S8x32x1x1x1 .f32) (h4 : a4.IsWhole) (a5 : Memref sig .tc .vmem S8x32x1x1x1 .f32) (h5 : a5.IsWhole) (hc : cond0_0 i) (x0 : Vec F S8x32x2x64x64 .f32) :
    out0_A_4 c i a1 h1 a2 h2 a3 h3 a4 h4 a5 h5 hc x0 = k0_pay1 (k0_pay4 x0) (k0_pay6 (F := F)) := by
  unfold out0_A_4
  rw [View.read_writes_eq_canon _ _ _ (cover0_A_4 c i a1 h1 a2 h2 a3 h3 a4 h4 a5 h5 hc x0)]
  unfold kernelRun0_A
  dsimp only
  sl_unfold_words
  rw [View.canon_cons_unit_zero (S := S8x32x1x1x1) hz, View.readCov_unit_zero (S := S8x32x1x1x1) _ hz]
  simp only [View.readAt_eq_ld, h1.read_unread, View.ld_unit_zero (S := S8x32x2x64x64) hz]
theorem pieceB_1 (c : Dev nD) (i : grid0.Coords) (a1 : Memref sig .tc .vmem S8x32x2x64x64 .f32) (h1 : a1.IsWhole) (a2 : Memref sig .tc .vmem S8x1x2x64x64 .f32) (h2 : a2.IsWhole) (a3 : Memref sig .tc .vmem S1x32x2x64x64 .f32) (h3 : a3.IsWhole) (a4 : Memref sig .tc .vmem S8x32x1x1x1 .f32) (h4 : a4.IsWhole) (a5 : Memref sig .tc .vmem S8x32x1x1x1 .f32) (h5 : a5.IsWhole) (hc : ¬cond0_0 i) (x0 : Vec F S8x32x2x64x64 .f32)
    (xo3 xo4 : Vec F S8x32x1x1x1 .f32) :
    out0_B_1 c i a1 h1 a2 h2 a3 h3 a4 h4 a5 h5 hc x0 xo3 xo4 = k0_pay2 x0 := by
  unfold out0_B_1
  rw [View.read_writes_eq_canon _ _ _ (cover0_B_1 c i a1 h1 a2 h2 a3 h3 a4 h4 a5 h5 hc x0 xo3 xo4)]
  unfold kernelRun0_B
  dsimp only
  sl_unfold_words
  rw [View.canon_unit_zero hz]
  simp only [View.readAt_eq_ld, h1.read_unread, View.ld_unit_zero (S := S8x32x2x64x64) hz]
theorem pieceB_2 (c : Dev nD) (i : grid0.Coords) (a1 : Memref sig .tc .vmem S8x32x2x64x64 .f32) (h1 : a1.IsWhole) (a2 : Memref sig .tc .vmem S8x1x2x64x64 .f32) (h2 : a2.IsWhole) (a3 : Memref sig .tc .vmem S1x32x2x64x64 .f32) (h3 : a3.IsWhole) (a4 : Memref sig .tc .vmem S8x32x1x1x1 .f32) (h4 : a4.IsWhole) (a5 : Memref sig .tc .vmem S8x32x1x1x1 .f32) (h5 : a5.IsWhole) (hc : ¬cond0_0 i) (x0 : Vec F S8x32x2x64x64 .f32)
    (xo3 xo4 : Vec F S8x32x1x1x1 .f32) :
    out0_B_2 c i a1 h1 a2 h2 a3 h3 a4 h4 a5 h5 hc x0 xo3 xo4 = k0_pay3 x0 := by
  unfold out0_B_2
  rw [View.read_writes_eq_canon _ _ _ (cover0_B_2 c i a1 h1 a2 h2 a3 h3 a4 h4 a5 h5 hc x0 xo3 xo4)]
  unfold kernelRun0_B
  dsimp only
  sl_unfold_words
  rw [View.canon_unit_zero hz]
  simp only [View.readAt_eq_ld, h1.read_unread, View.ld_unit_zero (S := S8x32x2x64x64) hz]
/-- At a later point the block's sum is added to what the mean accumulator held. -/
theorem pieceB_3 (c : Dev nD) (i : grid0.Coords) (a1 : Memref sig .tc .vmem S8x32x2x64x64 .f32) (h1 : a1.IsWhole) (a2 : Memref sig .tc .vmem S8x1x2x64x64 .f32) (h2 : a2.IsWhole) (a3 : Memref sig .tc .vmem S1x32x2x64x64 .f32) (h3 : a3.IsWhole) (a4 : Memref sig .tc .vmem S8x32x1x1x1 .f32) (h4 : a4.IsWhole) (a5 : Memref sig .tc .vmem S8x32x1x1x1 .f32) (h5 : a5.IsWhole) (hc : ¬cond0_0 i) (x0 : Vec F S8x32x2x64x64 .f32)
    (xo3 xo4 : Vec F S8x32x1x1x1 .f32) :
    out0_B_3 c i a1 h1 a2 h2 a3 h3 a4 h4 a5 h5 hc x0 xo3 xo4 = k0_pay7 x0 xo3 := by
  unfold out0_B_3
  rw [View.read_writes_eq_canon _ _ _ (cover0_B_3 c i a1 h1 a2 h2 a3 h3 a4 h4 a5 h5 hc x0 xo3 xo4)]
  unfold kernelRun0_B
  dsimp only
  sl_unfold_words
  rw [View.canon_unit_zero hz]
  simp only [View.readAt_eq_ld, h1.read_unread, h4.read_unread, View.ld_unit_zero (S := S8x32x2x64x64) hz,
    View.ld_unit_zero (S := S8x32x1x1x1) hz]
/-- At a later point the block's sum of squares is added to what the square accumulator held. -/
theorem pieceB_4 (c : Dev nD) (i : grid0.Coords) (a1 : Memref sig .tc .vmem S8x32x2x64x64 .f32) (h1 : a1.IsWhole) (a2 : Memref sig .tc .vmem S8x1x2x64x64 .f32) (h2 : a2.IsWhole) (a3 : Memref sig .tc .vmem S1x32x2x64x64 .f32) (h3 : a3.IsWhole) (a4 : Memref sig .tc .vmem S8x32x1x1x1 .f32) (h4 : a4.IsWhole) (a5 : Memref sig .tc .vmem S8x32x1x1x1 .f32) (h5 : a5.IsWhole) (hc : ¬cond0_0 i) (x0 : Vec F S8x32x2x64x64 .f32)
    (xo3 xo4 : Vec F S8x32x1x1x1 .f32) :
    out0_B_4 c i a1 h1 a2 h2 a3 h3 a4 h4 a5 h5 hc x0 xo3 xo4 = k0_pay1 (k0_pay4 x0) xo4 := by
  unfold out0_B_4
  rw [View.read_writes_eq_canon _ _ _ (cover0_B_4 c i a1 h1 a2 h2 a3 h3 a4 h4 a5 h5 hc x0 xo3 xo4)]
  unfold kernelRun0_B
  dsimp only
  sl_unfold_words
  rw [View.canon_unit_zero hz]
  simp only [View.readAt_eq_ld, h1.read_unread, h5.read_unread, View.ld_unit_zero (S := S8x32x2x64x64) hz,
    View.ld_unit_zero (S := S8x32x1x1x1) hz]

end Pieces

end Cert.KernelIdeal.Val

end
-- ==== Proof.StatsPay.lean ====
/-
  Region 0's payloads read at an index, over the extended reals: the channel sum and the batch sum of a block, and the
  block's sum (of the entries, or of their squares) over its two time steps, rows and columns — taken one axis at a time,
  columns first — added to the accumulator; the accumulators' reset value is zero.
-/
import proofs.«173700_j35622458753953_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem Idealize.ShloMosaic.ValueIdx
open Cert.KernelIdeal Cert.KernelIdeal.Gen

/-- The index over (b, c, ·, 0, 0) with time step dt inserted on axis 2. -/
private theorem StatsPay_lift_t (b : Fin 8) (c : Fin 32) (dt : Fin 2) :
    reduces_S8x32x2x1x1_S8x32x1x1.lift (ix4 b c (0 : Fin 1) (0 : Fin 1)) dt = ix5 b c dt (0 : Fin 1) (0 : Fin 1) :=
  funext fun a => Fin.ext (by
    match a with
    | ⟨0, _⟩ => rfl
    | ⟨1, _⟩ => rfl
    | ⟨2, _⟩ => rfl
    | ⟨3, _⟩ => rfl
    | ⟨4, _⟩ => rfl)

/-- The index over (b, c, dt, ·, 0) with row h inserted on axis 3. -/
private theorem StatsPay_lift_h (b : Fin 8) (c : Fin 32) (dt : Fin 2) (h : Fin 64) :
    reduces_S8x32x2x64x1_S8x32x2x1.lift (ix4 b c dt (0 : Fin 1)) h = ix5 b c dt h (0 : Fin 1) :=
  funext fun a => Fin.ext (by
    match a with
    | ⟨0, _⟩ => rfl
    | ⟨1, _⟩ => rfl
    | ⟨2, _⟩ => rfl
    | ⟨3, _⟩ => rfl
    | ⟨4, _⟩ => rfl)

/-- The index over (b, c, dt, h, ·) with column w inserted on axis 4. -/
private theorem StatsPay_lift_w (b : Fin 8) (c : Fin 32) (dt : Fin 2) (h w : Fin 64) :
    reduces_S8x32x2x64x64_S8x32x2x64.lift (ix4 b c dt h) w = ix5 b c dt h w :=
  funext fun a => Fin.ext (by
    match a with
    | ⟨0, _⟩ => rfl
    | ⟨1, _⟩ => rfl
    | ⟨2, _⟩ => rfl
    | ⟨3, _⟩ => rfl
    | ⟨4, _⟩ => rfl)

/-- A block summed over its columns, then its rows, then its two time steps (a unit axis put back after each sum),
    read at (b, c, 0, 0, 0): the triple sum of the block's entries at (b, c). -/
private theorem StatsPay_sum3 (y : FVec Ideal S8x32x2x64x64 .f32) (b : Fin 8) (c : Fin 32) :
    shapeCast S8x32x1x1x1
        (multiReduction .add [2] S8x32x1x1
          (shapeCast S8x32x2x1x1
            (multiReduction .add [3] S8x32x2x1
              (shapeCast S8x32x2x64x1
                (multiReduction .add [4] S8x32x2x64 y 0x00000000#32 reduces_S8x32x2x64x64_S8x32x2x64 (.inl rfl) rfl)
                shapeCasts_S8x32x2x64_S8x32x2x64x1)
              0x00000000#32 reduces_S8x32x2x64x1_S8x32x2x1 (.inl rfl) rfl)
            shapeCasts_S8x32x2x1_S8x32x2x1x1)
          0x00000000#32 reduces_S8x32x2x1x1_S8x32x1x1 (.inl rfl) rfl)
        shapeCasts_S8x32x1x1_S8x32x1x1x1 (ix5 b c (0 : Fin 1) (0 : Fin 1) (0 : Fin 1))
      = ∑ dt : Fin 2, ∑ h : Fin 64, ∑ w : Fin 64, y (ix5 b c dt h w) := by
  refine (shapeCast_apply _ _ _ (ix4 b c (0 : Fin 1) (0 : Fin 1)) ?_).trans ?_
  · rw [Shape.rowMajor_val_four, Shape.rowMajor_val_five]
    show ((b.val * 32 + c.val) * 1 + 0) * 1 + 0 = (((b.val * 32 + c.val) * 1 + 0) * 1 + 0) * 1 + 0
    omega
  refine (Ideal.multiReduction_add_single _ _ _ _ _ _).trans ?_
  refine Finset.sum_congr rfl fun (dt : Fin 2) _ => ?_
  rw [StatsPay_lift_t]
  refine (shapeCast_apply _ _ _ (ix4 b c dt (0 : Fin 1)) ?_).trans ?_
  · rw [Shape.rowMajor_val_four, Shape.rowMajor_val_five]
    show ((b.val * 32 + c.val) * 2 + dt.val) * 1 + 0 = (((b.val * 32 + c.val) * 2 + dt.val) * 1 + 0) * 1 + 0
    omega
  refine (Ideal.multiReduction_add_single _ _ _ _ _ _).trans ?_
  refine Finset.sum_congr rfl fun (h : Fin 64) _ => ?_
  rw [StatsPay_lift_h]
  refine (shapeCast_apply _ _ _ (ix4 b c dt h) ?_).trans ?_
  · rw [Shape.rowMajor_val_four, Shape.rowMajor_val_five]
    show ((b.val * 32 + c.val) * 2 + dt.val) * 64 + h.val = (((b.val * 32 + c.val) * 2 + dt.val) * 64 + h.val) * 1 + 0
    omega
  refine (Ideal.multiReduction_add_single _ _ _ _ _ _).trans ?_
  exact Finset.sum_congr rfl fun (w : Fin 64) _ => congrArg y (StatsPay_lift_w b c dt h w)

/-- The channel sum of a block at (b, ·, dt, h, w). -/
theorem pay2_apply (x0 : Vec Ideal S8x32x2x64x64 .f32) (b : Fin 8) (dt : Fin 2) (h w : Fin 64) :
    k0_pay2 (F := Ideal) x0 (ix5 b (0 : Fin 1) dt h w) = ∑ c : Fin 32, x0 (ix5 b c dt h w) := by
  unfold k0_pay2
  refine (shapeCast_apply _ _ _ (ix4 b dt h w) ?_).trans ?_
  · rw [Shape.rowMajor_val_four, Shape.rowMajor_val_five]
    show ((b.val * 2 + dt.val) * 64 + h.val) * 64 + w.val
      = (((b.val * 1 + 0) * 2 + dt.val) * 64 + h.val) * 64 + w.val
    omega
  · refine (Ideal.multiReduction_add_single _ _ _ _ _ _).trans ?_
    refine Finset.sum_congr rfl fun c _ => congrArg x0 ?_
    funext a
    refine Fin.ext ?_
    match a with
    | ⟨0, _⟩ => rfl
    | ⟨1, _⟩ => rfl
    | ⟨2, _⟩ => rfl
    | ⟨3, _⟩ => rfl
    | ⟨4, _⟩ => rfl
/-- The batch sum of a block at (·, c, dt, h, w). -/
theorem pay3_apply (x0 : Vec Ideal S8x32x2x64x64 .f32) (c : Fin 32) (dt : Fin 2) (h w : Fin 64) :
    k0_pay3 (F := Ideal) x0 (ix5 (0 : Fin 1) c dt h w) = ∑ b : Fin 8, x0 (ix5 b c dt h w) := by
  unfold k0_pay3
  refine (shapeCast_apply _ _ _ (ix4 c dt h w) ?_).trans ?_
  · rw [Shape.rowMajor_val_four, Shape.rowMajor_val_five]
    show ((c.val * 2 + dt.val) * 64 + h.val) * 64 + w.val
      = (((0 * 32 + c.val) * 2 + dt.val) * 64 + h.val) * 64 + w.val
    omega
  · refine (Ideal.multiReduction_add_single _ _ _ _ _ _).trans ?_
    refine Finset.sum_congr rfl fun b _ => congrArg x0 ?_
    funext a
    refine Fin.ext ?_
    match a with
    | ⟨0, _⟩ => rfl
    | ⟨1, _⟩ => rfl
    | ⟨2, _⟩ => rfl
    | ⟨3, _⟩ => rfl
    | ⟨4, _⟩ => rfl
/-- The block's sum over its two time steps, rows and columns, added to the accumulator at (b, c). -/
theorem pay7_apply (x0 : Vec Ideal S8x32x2x64x64 .f32) (acc : Vec Ideal S8x32x1x1x1 .f32) (b : Fin 8) (c : Fin 32) :
    k0_pay7 (F := Ideal) x0 acc (ix5 b c (0 : Fin 1) (0 : Fin 1) (0 : Fin 1))
      = acc (ix5 b c (0 : Fin 1) (0 : Fin 1) (0 : Fin 1)) + ∑ dt : Fin 2, ∑ h : Fin 64, ∑ w : Fin 64, x0 (ix5 b c dt h w) := by
  unfold k0_pay7
  refine (addf_apply _ _ _).trans ?_
  exact congrArg₂ (· + ·) (congrFun (shapeCast_self _ _) _) (StatsPay_sum3 x0 b c)
/-- The block's sum of squares over its two time steps, rows and columns, added to the accumulator at (b, c). -/
theorem pay1_apply (x0 : Vec Ideal S8x32x2x64x64 .f32) (acc : Vec Ideal S8x32x1x1x1 .f32) (b : Fin 8) (c : Fin 32) :
    k0_pay1 (F := Ideal) (k0_pay4 (F := Ideal) x0) acc (ix5 b c (0 : Fin 1) (0 : Fin 1) (0 : Fin 1))
      = acc (ix5 b c (0 : Fin 1) (0 : Fin 1) (0 : Fin 1))
        + ∑ dt : Fin 2, ∑ h : Fin 64, ∑ w : Fin 64, x0 (ix5 b c dt h w) * x0 (ix5 b c dt h w) := by
  unfold k0_pay1 k0_pay4
  refine (addf_apply _ _ _).trans ?_
  exact congrArg₂ (· + ·) (congrFun (shapeCast_self _ _) _) (StatsPay_sum3 (mulf x0 x0) b c)
/-- The reset value of either accumulator is zero everywhere. -/
theorem pay5_apply (i : S8x32x1x1x1.Idx) : k0_pay5 (F := Ideal) i = 0 := by
  unfold k0_pay5
  exact Ideal.ofBits_zero_f32
theorem pay6_apply (i : S8x32x1x1x1.Idx) : k0_pay6 (F := Ideal) i = 0 := by
  unfold k0_pay6
  exact Ideal.ofBits_zero_f32

end Cert.KernelIdeal.Val

end
-- ==== Proof.StatsFinal.lean ====
/-
  Region 0 (the statistics pass), over its whole grid of 16 points, each reading two time steps of the input.

  The channel sums and the batch sums are written back block by block, each point's block the sums over its own two time
  steps; the two accumulators (the sum and the sum of squares over time and space, per (b, c)) keep one block through the
  whole grid, reset at the first point and written back after the last, so they end at the sum over all 16 points of each
  point's partial sum, which is the sum over all 32 time steps.
-/
import proofs.«173700_j35622458753953_1_alg».proof.Proof.StatsPieces
import proofs.«173700_j35622458753953_1_alg».proof.Proof.StatsPay
import proofs.«173700_j35622458753953_1_alg».proof.Proof.Spec

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The input block a point reads: time steps 2t and 2t + 1 of the array -/

/-- The input block at a point and the input array, by their literal types. -/
private abbrev xblk (c : Dev nD) (t : Fin cfg0.N) : Vec Ideal S8x32x2x64x64 .f32 := iblk0 V c 0 t
private abbrev xarr (c : Dev nD) : Cert.Spec.SX.Idx → EReal := V c main_arg0

private theorem idx0_facts : ∀ t : Fin cfg0.N, win0_0.index t (0 : Fin 5) = 0 ∧ win0_0.index t (1 : Fin 5) = 0
    ∧ win0_0.index t (2 : Fin 5) = t.val ∧ win0_0.index t (3 : Fin 5) = 0 ∧ win0_0.index t (4 : Fin 5) = 0 :=
  (by decide +kernel : ∀ t : Fin grid0.N, _)

private theorem xblk_apply (c : Dev nD) (t : Fin cfg0.N) (b : Fin 8) (ch : Fin 32) (dt : Fin 2) (h w : Fin 64)
    (T : Fin 32) (hT : T.val = 2 * t.val + dt.val) :
    xblk V c t (ix5 b ch dt h w) = xarr V c (ix5 b ch T h w) := by
  obtain ⟨e0, e1, e2, e3, e4⟩ := idx0_facts t
  show iblk0 V c 0 t (ix5 b ch dt h w) = _
  unfold iblk0
  rw [View.read_apply]
  show V c main_arg0 _ = V c main_arg0 _
  congr 1
  funext a
  apply Fin.ext
  match a with
  | ⟨0, _⟩ => show win0_0.index t (0 : Fin 5) * 8 + 1 * b.val = b.val; rw [e0]; omega
  | ⟨1, _⟩ => show win0_0.index t (1 : Fin 5) * 32 + 1 * ch.val = ch.val; rw [e1]; omega
  | ⟨2, _⟩ => show win0_0.index t (2 : Fin 5) * 2 + 1 * dt.val = T.val; rw [e2]; omega
  | ⟨3, _⟩ => show win0_0.index t (3 : Fin 5) * 64 + 1 * h.val = h.val; rw [e3]; omega
  | ⟨4, _⟩ => show win0_0.index t (4 : Fin 5) * 64 + 1 * w.val = w.val; rw [e4]; omega

/-! ## The channel sums and the batch sums: every point writes its own block back -/

/-- What a point leaves in the channel-sum block: the sum over the channels of the input block. -/
private theorem after1_apply (c : Dev nD) (t : Fin cfg0.N) (b : Fin 8) (dt : Fin 2) (h w : Fin 64) :
    (outsAt0 V c t.val t.isLt).1 (ix5 b (0 : Fin 1) dt h w) = ∑ ch : Fin 32, xblk V c t (ix5 b ch dt h w) := by
  by_cases h0 : t.val % 16 = 0
  · rw [outsAt0_A V c t h0]
    dsimp only
    refine (congrFun (pieceA_1 (F := Ideal) c (grid0.coords t) (ms0_0 t) (hs0_0 t) (ms0_1 t) (hs0_1 t) (ms0_2 t) (hs0_2 t)
      (ms0_3 t) (hs0_3 t) (ms0_4 t) (hs0_4 t) ((hcond0_0 t).mpr h0) (xblk V c t)) (ix5 b (0 : Fin 1) dt h w)).trans ?_
    exact pay2_apply (xblk V c t) b dt h w
  · rw [outsAt0_B V c t h0]
    dsimp only
    refine (congrFun (pieceB_1 (F := Ideal) c (grid0.coords t) (ms0_0 t) (hs0_0 t) (ms0_1 t) (hs0_1 t) (ms0_2 t) (hs0_2 t)
      (ms0_3 t) (hs0_3 t) (ms0_4 t) (hs0_4 t) (fun h => h0 ((hcond0_0 t).mp h)) (xblk V c t)
      (outsAt0 V c (t.val - 1) (Nat.lt_of_le_of_lt (Nat.sub_le _ _) t.isLt)).2.2.1
      (outsAt0 V c (t.val - 1) (Nat.lt_of_le_of_lt (Nat.sub_le _ _) t.isLt)).2.2.2) (ix5 b (0 : Fin 1) dt h w)).trans ?_
    exact pay2_apply (xblk V c t) b dt h w

private theorem idx1_facts : ∀ t : Fin cfg0.N, win0_1.index t (0 : Fin 5) = 0 ∧ win0_1.index t (1 : Fin 5) = 0
    ∧ win0_1.index t (2 : Fin 5) = t.val ∧ win0_1.index t (3 : Fin 5) = 0 ∧ win0_1.index t (4 : Fin 5) = 0 :=
  (by decide +kernel : ∀ t : Fin grid0.N, _)

/-- The channel-sum array, as one function of the input array. -/
private abbrev zarr (c : Dev nD) : S8x1x32x64x64.Idx → EReal :=
  fun i => Cert.Spec.sumC (V c main_arg0) (i 0) (i 2) (i 3) (i 4)

/-- What a point writes back of the channel sums is its block of that function. -/
private theorem flushed1_eq (c : Dev nD) (t : Fin cfg0.N) :
    (dat0 V c).flushed 1 t = ((cfg0.win 1).blk t).view.read (Elt Ideal) (zarr V c) := by
  show (cfg0.win 1).cut (grid0.coords t) ((dat0 V c).after 1 t) = _
  rw [after0_1]
  have hN : t.val < 16 := lt_of_lt_of_eq t.isLt (show cfg0.N = 16 from N_0)
  obtain ⟨e0, e1, e2, e3, e4⟩ := idx1_facts t
  funext j
  obtain ⟨b, z, dt, h, w, rfl⟩ : ∃ (b : Fin 8) (z : Fin 1) (dt : Fin 2) (h w : Fin 64), j = ix5 b z dt h w :=
    ⟨j 0, j 1, j 2, j 3, j 4, eq_ix5 j⟩
  obtain rfl : z = 0 := Subsingleton.elim _ _
  rw [View.read_apply]
  have hemb : ((cfg0.win 1).blk t).view.emb (ix5 b (0 : Fin 1) dt h w)
      = ix5 b (0 : Fin 1) (⟨2 * t.val + dt.val, by have := dt.isLt; omega⟩ : Fin 32) h w := by
    funext a
    apply Fin.ext
    match a with
    | ⟨0, _⟩ => show win0_1.index t (0 : Fin 5) * 8 + 1 * b.val = b.val; rw [e0]; omega
    | ⟨1, _⟩ => show win0_1.index t (1 : Fin 5) * 1 + 1 * 0 = 0; rw [e1]
    | ⟨2, _⟩ => show win0_1.index t (2 : Fin 5) * 2 + 1 * dt.val = 2 * t.val + dt.val; rw [e2]; omega
    | ⟨3, _⟩ => show win0_1.index t (3 : Fin 5) * 64 + 1 * h.val = h.val; rw [e3]; omega
    | ⟨4, _⟩ => show win0_1.index t (4 : Fin 5) * 64 + 1 * w.val = w.val; rw [e4]; omega
  rw [hemb]
  show (outsAt0 V c t.val t.isLt).1 (ix5 b (0 : Fin 1) dt h w)
    = ∑ ch : Fin 32, xarr V c (ix5 b ch (⟨2 * t.val + dt.val, by have := dt.isLt; omega⟩ : Fin 32) h w)
  rw [after1_apply]
  exact Finset.sum_congr rfl fun ch _ => xblk_apply V c t b ch dt h w _ rfl

/-- What a point leaves in the batch-sum block: the sum over the batch of the input block. -/
private theorem after2_apply (c : Dev nD) (t : Fin cfg0.N) (ch : Fin 32) (dt : Fin 2) (h w : Fin 64) :
    (outsAt0 V c t.val t.isLt).2.1 (ix5 (0 : Fin 1) ch dt h w) = ∑ b : Fin 8, xblk V c t (ix5 b ch dt h w) := by
  by_cases h0 : t.val % 16 = 0
  · rw [outsAt0_A V c t h0]
    dsimp only
    refine (congrFun (pieceA_2 (F := Ideal) c (grid0.coords t) (ms0_0 t) (hs0_0 t) (ms0_1 t) (hs0_1 t) (ms0_2 t) (hs0_2 t)
      (ms0_3 t) (hs0_3 t) (ms0_4 t) (hs0_4 t) ((hcond0_0 t).mpr h0) (xblk V c t)) (ix5 (0 : Fin 1) ch dt h w)).trans ?_
    exact pay3_apply (xblk V c t) ch dt h w
  · rw [outsAt0_B V c t h0]
    dsimp only
    refine (congrFun (pieceB_2 (F := Ideal) c (grid0.coords t) (ms0_0 t) (hs0_0 t) (ms0_1 t) (hs0_1 t) (ms0_2 t) (hs0_2 t)
      (ms0_3 t) (hs0_3 t) (ms0_4 t) (hs0_4 t) (fun h => h0 ((hcond0_0 t).mp h)) (xblk V c t)
      (outsAt0 V c (t.val - 1) (Nat.lt_of_le_of_lt (Nat.sub_le _ _) t.isLt)).2.2.1
      (outsAt0 V c (t.val - 1) (Nat.lt_of_le_of_lt (Nat.sub_le _ _) t.isLt)).2.2.2) (ix5 (0 : Fin 1) ch dt h w)).trans ?_
    exact pay3_apply (xblk V c t) ch dt h w

private theorem idx2_facts : ∀ t : Fin cfg0.N, win0_2.index t (0 : Fin 5) = 0 ∧ win0_2.index t (1 : Fin 5) = 0
    ∧ win0_2.index t (2 : Fin 5) = t.val ∧ win0_2.index t (3 : Fin 5) = 0 ∧ win0_2.index t (4 : Fin 5) = 0 :=
  (by decide +kernel : ∀ t : Fin grid0.N, _)

/-- The batch-sum array, as one function of the input array. -/
private abbrev sarr (c : Dev nD) : S1x32x32x64x64.Idx → EReal :=
  fun i => Cert.Spec.sumB (V c main_arg0) (i 1) (i 2) (i 3) (i 4)

/-- What a point writes back of the batch sums is its block of that function. -/
private theorem flushed2_eq (c : Dev nD) (t : Fin cfg0.N) :
    (dat0 V c).flushed 2 t = ((cfg0.win 2).blk t).view.read (Elt Ideal) (sarr V c) := by
  show (cfg0.win 2).cut (grid0.coords t) ((dat0 V c).after 2 t) = _
  rw [after0_2]
  have hN : t.val < 16 := lt_of_lt_of_eq t.isLt (show cfg0.N = 16 from N_0)
  obtain ⟨e0, e1, e2, e3, e4⟩ := idx2_facts t
  funext j
  obtain ⟨z, ch, dt, h, w, rfl⟩ : ∃ (z : Fin 1) (ch : Fin 32) (dt : Fin 2) (h w : Fin 64), j = ix5 z ch dt h w :=
    ⟨j 0, j 1, j 2, j 3, j 4, eq_ix5 j⟩
  obtain rfl : z = 0 := Subsingleton.elim _ _
  rw [View.read_apply]
  have hemb : ((cfg0.win 2).blk t).view.emb (ix5 (0 : Fin 1) ch dt h w)
      = ix5 (0 : Fin 1) ch (⟨2 * t.val + dt.val, by have := dt.isLt; omega⟩ : Fin 32) h w := by
    funext a
    apply Fin.ext
    match a with
    | ⟨0, _⟩ => show win0_2.index t (0 : Fin 5) * 1 + 1 * 0 = 0; rw [e0]
    | ⟨1, _⟩ => show win0_2.index t (1 : Fin 5) * 32 + 1 * ch.val = ch.val; rw [e1]; omega
    | ⟨2, _⟩ => show win0_2.index t (2 : Fin 5) * 2 + 1 * dt.val = 2 * t.val + dt.val; rw [e2]; omega
    | ⟨3, _⟩ => show win0_2.index t (3 : Fin 5) * 64 + 1 * h.val = h.val; rw [e3]; omega
    | ⟨4, _⟩ => show win0_2.index t (4 : Fin 5) * 64 + 1 * w.val = w.val; rw [e4]; omega
  rw [hemb]
  show (outsAt0 V c t.val t.isLt).2.1 (ix5 (0 : Fin 1) ch dt h w)
    = ∑ b : Fin 8, xarr V c (ix5 b ch (⟨2 * t.val + dt.val, by have := dt.isLt; omega⟩ : Fin 32) h w)
  rw [after2_apply]
  exact Finset.sum_congr rfl fun b _ => xblk_apply V c t b ch dt h w _ rfl

/-- An index of the channel-sum array is in a point's block iff each coordinate is in the block's range. -/
private theorem mem_blk1 (t : Fin cfg0.N) (i : S8x1x32x64x64.Idx) :
    i ∈ ((cfg0.win 1).blk t).view.set ↔ ∀ a : Fin 5, win0_1.index t a * S8x1x2x64x64.size a ≤ (i a).val
      ∧ (i a).val < win0_1.index t a * S8x1x2x64x64.size a + S8x1x2x64x64.size a := by
  show i ∈ ((View.whole main_v0_0).slice (win0_1.rect t)).set ↔ _
  rw [View.set_slice_whole, Rect.mem_set_unit]
  exact Iff.rfl

private theorem mem_blk2 (t : Fin cfg0.N) (i : S1x32x32x64x64.Idx) :
    i ∈ ((cfg0.win 2).blk t).view.set ↔ ∀ a : Fin 5, win0_2.index t a * S1x32x2x64x64.size a ≤ (i a).val
      ∧ (i a).val < win0_2.index t a * S1x32x2x64x64.size a + S1x32x2x64x64.size a := by
  show i ∈ ((View.whole main_v0_1).slice (win0_2.rect t)).set ↔ _
  rw [View.set_slice_whole, Rect.mem_set_unit]
  exact Iff.rfl

/-- The channel-sum array after the region: at (b, ·, t, h, w) the sum over the channels. -/
theorem zsum_final (c : Dev nD) :
    (dat0 V c).arrAt 1 cfg0.N = fun i => Cert.Spec.sumC (V c main_arg0) (i 0) (i 2) (i 3) (i 4) :=
  (dat0 V c).arrAt_eq_of_cover 1 (zarr V c) (fun t _ => flushed1_eq V c t) fun i => by
    have h0 : (i 0).val < 8 := (i 0).isLt
    have h1 : (i 1).val < 1 := (i 1).isLt
    have h2 : (i 2).val < 32 := (i 2).isLt
    have h3 : (i 3).val < 64 := (i 3).isLt
    have h4 : (i 4).val < 64 := (i 4).isLt
    refine ⟨⟨(i 2).val / 2, by rw [show cfg0.N = 16 from N_0]; omega⟩, flush0_1 _, ?_⟩
    rw [mem_blk1]
    obtain ⟨e0, e1, e2, e3, e4⟩ := idx1_facts ⟨(i 2).val / 2, by rw [show cfg0.N = 16 from N_0]; omega⟩
    intro a
    match a with
    | ⟨0, _⟩ => show win0_1.index _ (0 : Fin 5) * 8 ≤ (i 0).val ∧ (i 0).val < win0_1.index _ (0 : Fin 5) * 8 + 8; rw [e0]; omega
    | ⟨1, _⟩ => show win0_1.index _ (1 : Fin 5) * 1 ≤ (i 1).val ∧ (i 1).val < win0_1.index _ (1 : Fin 5) * 1 + 1; rw [e1]; omega
    | ⟨2, _⟩ => show win0_1.index _ (2 : Fin 5) * 2 ≤ (i 2).val ∧ (i 2).val < win0_1.index _ (2 : Fin 5) * 2 + 2; rw [e2]; dsimp only; omega
    | ⟨3, _⟩ => show win0_1.index _ (3 : Fin 5) * 64 ≤ (i 3).val ∧ (i 3).val < win0_1.index _ (3 : Fin 5) * 64 + 64; rw [e3]; omega
    | ⟨4, _⟩ => show win0_1.index _ (4 : Fin 5) * 64 ≤ (i 4).val ∧ (i 4).val < win0_1.index _ (4 : Fin 5) * 64 + 64; rw [e4]; omega

/-- The batch-sum array after the region: at (·, c, t, h, w) the sum over the batch. -/
theorem ssum_final (c : Dev nD) :
    (dat0 V c).arrAt 2 cfg0.N = fun i => Cert.Spec.sumB (V c main_arg0) (i 1) (i 2) (i 3) (i 4) :=
  (dat0 V c).arrAt_eq_of_cover 2 (sarr V c) (fun t _ => flushed2_eq V c t) fun i => by
    have h0 : (i 0).val < 1 := (i 0).isLt
    have h1 : (i 1).val < 32 := (i 1).isLt
    have h2 : (i 2).val < 32 := (i 2).isLt
    have h3 : (i 3).val < 64 := (i 3).isLt
    have h4 : (i 4).val < 64 := (i 4).isLt
    refine ⟨⟨(i 2).val / 2, by rw [show cfg0.N = 16 from N_0]; omega⟩, flush0_2 _, ?_⟩
    rw [mem_blk2]
    obtain ⟨e0, e1, e2, e3, e4⟩ := idx2_facts ⟨(i 2).val / 2, by rw [show cfg0.N = 16 from N_0]; omega⟩
    intro a
    match a with
    | ⟨0, _⟩ => show win0_2.index _ (0 : Fin 5) * 1 ≤ (i 0).val ∧ (i 0).val < win0_2.index _ (0 : Fin 5) * 1 + 1; rw [e0]; omega
    | ⟨1, _⟩ => show win0_2.index _ (1 : Fin 5) * 32 ≤ (i 1).val ∧ (i 1).val < win0_2.index _ (1 : Fin 5) * 32 + 32; rw [e1]; omega
    | ⟨2, _⟩ => show win0_2.index _ (2 : Fin 5) * 2 ≤ (i 2).val ∧ (i 2).val < win0_2.index _ (2 : Fin 5) * 2 + 2; rw [e2]; dsimp only; omega
    | ⟨3, _⟩ => show win0_2.index _ (3 : Fin 5) * 64 ≤ (i 3).val ∧ (i 3).val < win0_2.index _ (3 : Fin 5) * 64 + 64; rw [e3]; omega
    | ⟨4, _⟩ => show win0_2.index _ (4 : Fin 5) * 64 ≤ (i 4).val ∧ (i 4).val < win0_2.index _ (4 : Fin 5) * 64 + 64; rw [e4]; omega

/-! ## The two accumulators: one block through the whole grid, written back after the last point -/

/-- The sum of an array over rows and columns at (b, c) and time step k (read modulo 32). -/
private def hwsum (Y : Cert.Spec.SX.Idx → EReal) (b : Fin 8) (ch : Fin 32) (k : ℕ) : EReal :=
  ∑ h : Fin 64, ∑ w : Fin 64, Y (ix5 b ch (⟨k % 32, Nat.mod_lt _ (by decide)⟩ : Fin 32) h w)

/-- Sixteen pairs of consecutive time steps are the thirty-two time steps. -/
private theorem sum_pairs (g : Fin 32 → EReal) :
    ∑ p ∈ Finset.range 16, ∑ dt : Fin 2, g ⟨(2 * p + dt.val) % 32, Nat.mod_lt _ (by decide)⟩ = ∑ T : Fin 32, g T := by
  rw [Finset.sum_range, ← Equiv.sum_comp (finProdFinEquiv : Fin 16 × Fin 2 ≃ Fin 32) g, Fintype.sum_prod_type]
  refine Finset.sum_congr rfl fun p _ => Finset.sum_congr rfl fun dt _ => congrArg g (Fin.ext ?_)
  show (2 * p.val + dt.val) % 32 = dt.val + 2 * p.val
  have := p.isLt; have := dt.isLt; omega

/-- A point's block summed over its two time steps, rows and columns, in terms of the array. -/
private theorem blk_sum (c : Dev nD) (t : Fin cfg0.N) (b : Fin 8) (ch : Fin 32) :
    ∑ dt : Fin 2, ∑ h : Fin 64, ∑ w : Fin 64, xblk V c t (ix5 b ch dt h w)
      = ∑ dt : Fin 2, hwsum (xarr V c) b ch (2 * t.val + dt.val) := by
  have hN : t.val < 16 := lt_of_lt_of_eq t.isLt (show cfg0.N = 16 from N_0)
  refine Finset.sum_congr rfl fun dt _ => Finset.sum_congr rfl fun h _ => Finset.sum_congr rfl fun w _ => ?_
  exact xblk_apply V c t b ch dt h w ⟨(2 * t.val + dt.val) % 32, Nat.mod_lt _ (by decide)⟩
    (Nat.mod_eq_of_lt (by have := dt.isLt; omega))

private theorem blk_sqsum (c : Dev nD) (t : Fin cfg0.N) (b : Fin 8) (ch : Fin 32) :
    ∑ dt : Fin 2, ∑ h : Fin 64, ∑ w : Fin 64, xblk V c t (ix5 b ch dt h w) * xblk V c t (ix5 b ch dt h w)
      = ∑ dt : Fin 2, hwsum (Cert.Spec.sqr (xarr V c)) b ch (2 * t.val + dt.val) := by
  have hN : t.val < 16 := lt_of_lt_of_eq t.isLt (show cfg0.N = 16 from N_0)
  refine Finset.sum_congr rfl fun dt _ => Finset.sum_congr rfl fun h _ => Finset.sum_congr rfl fun w _ => ?_
  rw [xblk_apply V c t b ch dt h w ⟨(2 * t.val + dt.val) % 32, Nat.mod_lt _ (by decide)⟩
    (Nat.mod_eq_of_lt (by have := dt.isLt; omega))]
  rfl

/-- The first point resets the sum accumulator and adds its block's sum. -/
private theorem after3_A (c : Dev nD) (t : Fin cfg0.N) (h0 : t.val % 16 = 0) (b : Fin 8) (ch : Fin 32) :
    (outsAt0 V c t.val t.isLt).2.2.1 (ix5 b ch (0 : Fin 1) (0 : Fin 1) (0 : Fin 1))
      = ∑ dt : Fin 2, ∑ h : Fin 64, ∑ w : Fin 64, xblk V c t (ix5 b ch dt h w) := by
  rw [outsAt0_A V c t h0]
  dsimp only
  refine (congrFun (pieceA_3 (F := Ideal) c (grid0.coords t) (ms0_0 t) (hs0_0 t) (ms0_1 t) (hs0_1 t) (ms0_2 t) (hs0_2 t)
    (ms0_3 t) (hs0_3 t) (ms0_4 t) (hs0_4 t) ((hcond0_0 t).mpr h0) (xblk V c t)) (ix5 b ch (0 : Fin 1) (0 : Fin 1) (0 : Fin 1))).trans ?_
  refine (pay7_apply (xblk V c t) (k0_pay5 (F := Ideal)) b ch).trans ?_
  rw [pay5_apply, zero_add]

/-- A later point adds its block's sum to what the point before left. -/
private theorem after3_B (c : Dev nD) (t : Fin cfg0.N) (h0 : ¬t.val % 16 = 0) (b : Fin 8) (ch : Fin 32) :
    (outsAt0 V c t.val t.isLt).2.2.1 (ix5 b ch (0 : Fin 1) (0 : Fin 1) (0 : Fin 1))
      = (outsAt0 V c (t.val - 1) (Nat.lt_of_le_of_lt (Nat.sub_le _ _) t.isLt)).2.2.1 (ix5 b ch (0 : Fin 1) (0 : Fin 1) (0 : Fin 1))
        + ∑ dt : Fin 2, ∑ h : Fin 64, ∑ w : Fin 64, xblk V c t (ix5 b ch dt h w) := by
  rw [outsAt0_B V c t h0]
  dsimp only
  refine (congrFun (pieceB_3 (F := Ideal) c (grid0.coords t) (ms0_0 t) (hs0_0 t) (ms0_1 t) (hs0_1 t) (ms0_2 t) (hs0_2 t)
    (ms0_3 t) (hs0_3 t) (ms0_4 t) (hs0_4 t) (fun h => h0 ((hcond0_0 t).mp h)) (xblk V c t)
    (outsAt0 V c (t.val - 1) (Nat.lt_of_le_of_lt (Nat.sub_le _ _) t.isLt)).2.2.1
    (outsAt0 V c (t.val - 1) (Nat.lt_of_le_of_lt (Nat.sub_le _ _) t.isLt)).2.2.2) (ix5 b ch (0 : Fin 1) (0 : Fin 1) (0 : Fin 1))).trans ?_
  exact pay7_apply (xblk V c t) (outsAt0 V c (t.val - 1) (Nat.lt_of_le_of_lt (Nat.sub_le _ _) t.isLt)).2.2.1 b ch

/-- After point n the sum accumulator holds the sum over the time steps of points 0 … n. -/
private theorem acc3_inv (c : Dev nD) (b : Fin 8) (ch : Fin 32) : ∀ (n : ℕ) (hn : n < cfg0.N),
    (outsAt0 V c n hn).2.2.1 (ix5 b ch (0 : Fin 1) (0 : Fin 1) (0 : Fin 1))
      = ∑ p ∈ Finset.range (n + 1), ∑ dt : Fin 2, hwsum (xarr V c) b ch (2 * p + dt.val)
  | 0, hn => by
    refine (after3_A V c ⟨0, hn⟩ rfl b ch).trans ?_
    rw [Finset.sum_range_one]
    exact blk_sum V c ⟨0, hn⟩ b ch
  | n + 1, hn => by
    have hN : cfg0.N = 16 := N_0
    have hB : ¬(⟨n + 1, hn⟩ : Fin cfg0.N).val % 16 = 0 := by dsimp only; omega
    refine (after3_B V c ⟨n + 1, hn⟩ hB b ch).trans ?_
    rw [Finset.sum_range_succ]
    exact congrArg₂ (· + ·) (acc3_inv c b ch n (Nat.lt_of_succ_lt hn)) (blk_sum V c ⟨n + 1, hn⟩ b ch)

private theorem idx3_facts : ∀ t : Fin cfg0.N, win0_3.index t (0 : Fin 5) = 0 ∧ win0_3.index t (1 : Fin 5) = 0
    ∧ win0_3.index t (2 : Fin 5) = 0 ∧ win0_3.index t (3 : Fin 5) = 0 ∧ win0_3.index t (4 : Fin 5) = 0 :=
  (by decide +kernel : ∀ t : Fin grid0.N, _)

/-- The sum accumulator's array, as one function of the input array. -/
private abbrev marr (c : Dev nD) : S8x32x1x1x1.Idx → EReal :=
  fun i => Cert.Spec.sumTHW (V c main_arg0) (i 0) (i 1)

/-- The one write-back of the sum accumulator, after the last point, writes the sums over all time steps. -/
private theorem flushed3_eq (c : Dev nD) (t : Fin cfg0.N) (hf : (cfg0.win 3).flush t = true) :
    (dat0 V c).flushed 3 t = ((cfg0.win 3).blk t).view.read (Elt Ideal) (marr V c) := by
  have hN : t.val < 16 := lt_of_lt_of_eq t.isLt (show cfg0.N = 16 from N_0)
  have h15 : t.val = 15 := by have := (flush0_3 t).mp hf; omega
  show (cfg0.win 3).cut (grid0.coords t) ((dat0 V c).after 3 t) = _
  rw [after0_3]
  obtain ⟨e0, e1, e2, e3, e4⟩ := idx3_facts t
  funext j
  obtain ⟨b, ch, z2, z3, z4, rfl⟩ : ∃ (b : Fin 8) (ch : Fin 32) (z2 z3 z4 : Fin 1), j = ix5 b ch z2 z3 z4 :=
    ⟨j 0, j 1, j 2, j 3, j 4, eq_ix5 j⟩
  obtain rfl : z2 = 0 := Subsingleton.elim _ _
  obtain rfl : z3 = 0 := Subsingleton.elim _ _
  obtain rfl : z4 = 0 := Subsingleton.elim _ _
  rw [View.read_apply]
  have hemb : ((cfg0.win 3).blk t).view.emb (ix5 b ch (0 : Fin 1) (0 : Fin 1) (0 : Fin 1))
      = ix5 b ch (0 : Fin 1) (0 : Fin 1) (0 : Fin 1) := by
    funext a
    apply Fin.ext
    match a with
    | ⟨0, _⟩ => show win0_3.index t (0 : Fin 5) * 8 + 1 * b.val = b.val; rw [e0]; omega
    | ⟨1, _⟩ => show win0_3.index t (1 : Fin 5) * 32 + 1 * ch.val = ch.val; rw [e1]; omega
    | ⟨2, _⟩ => show win0_3.index t (2 : Fin 5) * 1 + 1 * 0 = 0; rw [e2]
    | ⟨3, _⟩ => show win0_3.index t (3 : Fin 5) * 1 + 1 * 0 = 0; rw [e3]
    | ⟨4, _⟩ => show win0_3.index t (4 : Fin 5) * 1 + 1 * 0 = 0; rw [e4]
  rw [hemb]
  show (outsAt0 V c t.val t.isLt).2.2.1 (ix5 b ch (0 : Fin 1) (0 : Fin 1) (0 : Fin 1))
    = ∑ T : Fin 32, ∑ h : Fin 64, ∑ w : Fin 64, xarr V c (ix5 b ch T h w)
  rw [acc3_inv V c b ch t.val t.isLt, h15]
  exact sum_pairs (fun T => ∑ h : Fin 64, ∑ w : Fin 64, xarr V c (ix5 b ch T h w))

private theorem mem_blk3 (t : Fin cfg0.N) (i : S8x32x1x1x1.Idx) :
    i ∈ ((cfg0.win 3).blk t).view.set ↔ ∀ a : Fin 5, win0_3.index t a * S8x32x1x1x1.size a ≤ (i a).val
      ∧ (i a).val < win0_3.index t a * S8x32x1x1x1.size a + S8x32x1x1x1.size a := by
  show i ∈ ((View.whole main_v0_2).slice (win0_3.rect t)).set ↔ _
  rw [View.set_slice_whole, Rect.mem_set_unit]
  exact Iff.rfl

/-- The sum accumulator after the region: at (b, c) the sum over time and space. -/
theorem musum_final (c : Dev nD) :
    (dat0 V c).arrAt 3 cfg0.N = fun i => Cert.Spec.sumTHW (V c main_arg0) (i 0) (i 1) :=
  (dat0 V c).arrAt_eq_of_cover 3 (marr V c) (flushed3_eq V c) fun i => by
    have h0 : (i 0).val < 8 := (i 0).isLt
    have h1 : (i 1).val < 32 := (i 1).isLt
    have h2 : (i 2).val < 1 := (i 2).isLt
    have h3 : (i 3).val < 1 := (i 3).isLt
    have h4 : (i 4).val < 1 := (i 4).isLt
    have hlast : 15 < cfg0.N := by rw [show cfg0.N = 16 from N_0]; decide
    refine ⟨⟨15, hlast⟩, (flush0_3 _).mpr rfl, ?_⟩
    rw [mem_blk3]
    obtain ⟨e0, e1, e2, e3, e4⟩ := idx3_facts ⟨15, hlast⟩
    intro a
    match a with
    | ⟨0, _⟩ => show win0_3.index _ (0 : Fin 5) * 8 ≤ (i 0).val ∧ (i 0).val < win0_3.index _ (0 : Fin 5) * 8 + 8; rw [e0]; omega
    | ⟨1, _⟩ => show win0_3.index _ (1 : Fin 5) * 32 ≤ (i 1).val ∧ (i 1).val < win0_3.index _ (1 : Fin 5) * 32 + 32; rw [e1]; omega
    | ⟨2, _⟩ => show win0_3.index _ (2 : Fin 5) * 1 ≤ (i 2).val ∧ (i 2).val < win0_3.index _ (2 : Fin 5) * 1 + 1; rw [e2]; omega
    | ⟨3, _⟩ => show win0_3.index _ (3 : Fin 5) * 1 ≤ (i 3).val ∧ (i 3).val < win0_3.index _ (3 : Fin 5) * 1 + 1; rw [e3]; omega
    | ⟨4, _⟩ => show win0_3.index _ (4 : Fin 5) * 1 ≤ (i 4).val ∧ (i 4).val < win0_3.index _ (4 : Fin 5) * 1 + 1; rw [e4]; omega

/-- The first point resets the square accumulator and adds its block's sum of squares. -/
private theorem after4_A (c : Dev nD) (t : Fin cfg0.N) (h0 : t.val % 16 = 0) (b : Fin 8) (ch : Fin 32) :
    (outsAt0 V c t.val t.isLt).2.2.2 (ix5 b ch (0 : Fin 1) (0 : Fin 1) (0 : Fin 1))
      = ∑ dt : Fin 2, ∑ h : Fin 64, ∑ w : Fin 64, xblk V c t (ix5 b ch dt h w) * xblk V c t (ix5 b ch dt h w) := by
  rw [outsAt0_A V c t h0]
  dsimp only
  refine (congrFun (pieceA_4 (F := Ideal) c (grid0.coords t) (ms0_0 t) (hs0_0 t) (ms0_1 t) (hs0_1 t) (ms0_2 t) (hs0_2 t)
    (ms0_3 t) (hs0_3 t) (ms0_4 t) (hs0_4 t) ((hcond0_0 t).mpr h0) (xblk V c t)) (ix5 b ch (0 : Fin 1) (0 : Fin 1) (0 : Fin 1))).trans ?_
  refine (pay1_apply (xblk V c t) (k0_pay6 (F := Ideal)) b ch).trans ?_
  rw [pay6_apply, zero_add]

/-- A later point adds its block's sum of squares to what the point before left. -/
private theorem after4_B (c : Dev nD) (t : Fin cfg0.N) (h0 : ¬t.val % 16 = 0) (b : Fin 8) (ch : Fin 32) :
    (outsAt0 V c t.val t.isLt).2.2.2 (ix5 b ch (0 : Fin 1) (0 : Fin 1) (0 : Fin 1))
      = (outsAt0 V c (t.val - 1) (Nat.lt_of_le_of_lt (Nat.sub_le _ _) t.isLt)).2.2.2 (ix5 b ch (0 : Fin 1) (0 : Fin 1) (0 : Fin 1))
        + ∑ dt : Fin 2, ∑ h : Fin 64, ∑ w : Fin 64, xblk V c t (ix5 b ch dt h w) * xblk V c t (ix5 b ch dt h w) := by
  rw [outsAt0_B V c t h0]
  dsimp only
  refine (congrFun (pieceB_4 (F := Ideal) c (grid0.coords t) (ms0_0 t) (hs0_0 t) (ms0_1 t) (hs0_1 t) (ms0_2 t) (hs0_2 t)
    (ms0_3 t) (hs0_3 t) (ms0_4 t) (hs0_4 t) (fun h => h0 ((hcond0_0 t).mp h)) (xblk V c t)
    (outsAt0 V c (t.val - 1) (Nat.lt_of_le_of_lt (Nat.sub_le _ _) t.isLt)).2.2.1
    (outsAt0 V c (t.val - 1) (Nat.lt_of_le_of_lt (Nat.sub_le _ _) t.isLt)).2.2.2) (ix5 b ch (0 : Fin 1) (0 : Fin 1) (0 : Fin 1))).trans ?_
  exact pay1_apply (xblk V c t) (outsAt0 V c (t.val - 1) (Nat.lt_of_le_of_lt (Nat.sub_le _ _) t.isLt)).2.2.2 b ch

/-- After point n the square accumulator holds the sum of squares over the time steps of points 0 … n. -/
private theorem acc4_inv (c : Dev nD) (b : Fin 8) (ch : Fin 32) : ∀ (n : ℕ) (hn : n < cfg0.N),
    (outsAt0 V c n hn).2.2.2 (ix5 b ch (0 : Fin 1) (0 : Fin 1) (0 : Fin 1))
      = ∑ p ∈ Finset.range (n + 1), ∑ dt : Fin 2, hwsum (Cert.Spec.sqr (xarr V c)) b ch (2 * p + dt.val)
  | 0, hn => by
    refine (after4_A V c ⟨0, hn⟩ rfl b ch).trans ?_
    rw [Finset.sum_range_one]
    exact blk_sqsum V c ⟨0, hn⟩ b ch
  | n + 1, hn => by
    have hN : cfg0.N = 16 := N_0
    have hB : ¬(⟨n + 1, hn⟩ : Fin cfg0.N).val % 16 = 0 := by dsimp only; omega
    refine (after4_B V c ⟨n + 1, hn⟩ hB b ch).trans ?_
    rw [Finset.sum_range_succ]
    exact congrArg₂ (· + ·) (acc4_inv c b ch n (Nat.lt_of_succ_lt hn)) (blk_sqsum V c ⟨n + 1, hn⟩ b ch)

private theorem idx4_facts : ∀ t : Fin cfg0.N, win0_4.index t (0 : Fin 5) = 0 ∧ win0_4.index t (1 : Fin 5) = 0
    ∧ win0_4.index t (2 : Fin 5) = 0 ∧ win0_4.index t (3 : Fin 5) = 0 ∧ win0_4.index t (4 : Fin 5) = 0 :=
  (by decide +kernel : ∀ t : Fin grid0.N, _)

/-- The square accumulator's array, as one function of the input array. -/
private abbrev qarr (c : Dev nD) : S8x32x1x1x1.Idx → EReal :=
  fun i => Cert.Spec.sumTHW (Cert.Spec.sqr (V c main_arg0)) (i 0) (i 1)

/-- The one write-back of the square accumulator, after the last point, writes the sums of squares over all time steps. -/
private theorem flushed4_eq (c : Dev nD) (t : Fin cfg0.N) (hf : (cfg0.win 4).flush t = true) :
    (dat0 V c).flushed 4 t = ((cfg0.win 4).blk t).view.read (Elt Ideal) (qarr V c) := by
  have hN : t.val < 16 := lt_of_lt_of_eq t.isLt (show cfg0.N = 16 from N_0)
  have h15 : t.val = 15 := by have := (flush0_4 t).mp hf; omega
  show (cfg0.win 4).cut (grid0.coords t) ((dat0 V c).after 4 t) = _
  rw [after0_4]
  obtain ⟨e0, e1, e2, e3, e4⟩ := idx4_facts t
  funext j
  obtain ⟨b, ch, z2, z3, z4, rfl⟩ : ∃ (b : Fin 8) (ch : Fin 32) (z2 z3 z4 : Fin 1), j = ix5 b ch z2 z3 z4 :=
    ⟨j 0, j 1, j 2, j 3, j 4, eq_ix5 j⟩
  obtain rfl : z2 = 0 := Subsingleton.elim _ _
  obtain rfl : z3 = 0 := Subsingleton.elim _ _
  obtain rfl : z4 = 0 := Subsingleton.elim _ _
  rw [View.read_apply]
  have hemb : ((cfg0.win 4).blk t).view.emb (ix5 b ch (0 : Fin 1) (0 : Fin 1) (0 : Fin 1))
      = ix5 b ch (0 : Fin 1) (0 : Fin 1) (0 : Fin 1) := by
    funext a
    apply Fin.ext
    match a with
    | ⟨0, _⟩ => show win0_4.index t (0 : Fin 5) * 8 + 1 * b.val = b.val; rw [e0]; omega
    | ⟨1, _⟩ => show win0_4.index t (1 : Fin 5) * 32 + 1 * ch.val = ch.val; rw [e1]; omega
    | ⟨2, _⟩ => show win0_4.index t (2 : Fin 5) * 1 + 1 * 0 = 0; rw [e2]
    | ⟨3, _⟩ => show win0_4.index t (3 : Fin 5) * 1 + 1 * 0 = 0; rw [e3]
    | ⟨4, _⟩ => show win0_4.index t (4 : Fin 5) * 1 + 1 * 0 = 0; rw [e4]
  rw [hemb]
  show (outsAt0 V c t.val t.isLt).2.2.2 (ix5 b ch (0 : Fin 1) (0 : Fin 1) (0 : Fin 1))
    = ∑ T : Fin 32, ∑ h : Fin 64, ∑ w : Fin 64, Cert.Spec.sqr (xarr V c) (ix5 b ch T h w)
  rw [acc4_inv V c b ch t.val t.isLt, h15]
  exact sum_pairs (fun T => ∑ h : Fin 64, ∑ w : Fin 64, Cert.Spec.sqr (xarr V c) (ix5 b ch T h w))

private theorem mem_blk4 (t : Fin cfg0.N) (i : S8x32x1x1x1.Idx) :
    i ∈ ((cfg0.win 4).blk t).view.set ↔ ∀ a : Fin 5, win0_4.index t a * S8x32x1x1x1.size a ≤ (i a).val
      ∧ (i a).val < win0_4.index t a * S8x32x1x1x1.size a + S8x32x1x1x1.size a := by
  show i ∈ ((View.whole main_v0_3).slice (win0_4.rect t)).set ↔ _
  rw [View.set_slice_whole, Rect.mem_set_unit]
  exact Iff.rfl

/-- The square accumulator after the region: at (b, c) the sum of squares over time and space. -/
theorem sqsum_final (c : Dev nD) :
    (dat0 V c).arrAt 4 cfg0.N
      = fun i => Cert.Spec.sumTHW (Cert.Spec.sqr (V c main_arg0)) (i 0) (i 1) :=
  (dat0 V c).arrAt_eq_of_cover 4 (qarr V c) (flushed4_eq V c) fun i => by
    have h0 : (i 0).val < 8 := (i 0).isLt
    have h1 : (i 1).val < 32 := (i 1).isLt
    have h2 : (i 2).val < 1 := (i 2).isLt
    have h3 : (i 3).val < 1 := (i 3).isLt
    have h4 : (i 4).val < 1 := (i 4).isLt
    have hlast : 15 < cfg0.N := by rw [show cfg0.N = 16 from N_0]; decide
    refine ⟨⟨15, hlast⟩, (flush0_4 _).mpr rfl, ?_⟩
    rw [mem_blk4]
    obtain ⟨e0, e1, e2, e3, e4⟩ := idx4_facts ⟨15, hlast⟩
    intro a
    match a with
    | ⟨0, _⟩ => show win0_4.index _ (0 : Fin 5) * 8 ≤ (i 0).val ∧ (i 0).val < win0_4.index _ (0 : Fin 5) * 8 + 8; rw [e0]; omega
    | ⟨1, _⟩ => show win0_4.index _ (1 : Fin 5) * 32 ≤ (i 1).val ∧ (i 1).val < win0_4.index _ (1 : Fin 5) * 32 + 32; rw [e1]; omega
    | ⟨2, _⟩ => show win0_4.index _ (2 : Fin 5) * 1 ≤ (i 2).val ∧ (i 2).val < win0_4.index _ (2 : Fin 5) * 1 + 1; rw [e2]; omega
    | ⟨3, _⟩ => show win0_4.index _ (3 : Fin 5) * 1 ≤ (i 3).val ∧ (i 3).val < win0_4.index _ (3 : Fin 5) * 1 + 1; rw [e3]; omega
    | ⟨4, _⟩ => show win0_4.index _ (4 : Fin 5) * 1 ≤ (i 4).val ∧ (i 4).val < win0_4.index _ (4 : Fin 5) * 1 + 1; rw [e4]; omega

end Cert.KernelIdeal.Val

end
-- ==== Proof.Fuse.lean ====
/-
  Region 1 (the gating pass), over its grid of 32 points, one time step each.

  Each point reads the input's block at its time step, the channel sums' and batch sums' blocks at the same time step, and
  the two per-(b, c) arrays whole, and writes back the gated value of every entry of its block; the blocks tile the result
  array, so after the region it holds the gated value at every index, as a function of the five arrays as the region finds
  them.
-/
import proofs.«173700_j35622458753953_1_alg».proof.Proof.Gen.KernelIdeal.Frame
import proofs.«173700_j35622458753953_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The body's arithmetic at one entry of a block -/

/-- A per-(b, c) array broadcast along time, rows and columns reads its (b, c) entry. -/
private theorem fuse_bcast_bc (x : Vec Ideal S8x32x1x1x1 .f32) (b : Fin 8) (c : Fin 32) (h w : Fin 64) :
    broadcastTo S8x32x1x64x64 x broadcasts_S8x32x1x1x1_S8x32x1x64x64 (ix5 b c (0 : Fin 1) h w)
      = x (ix5 b c (0 : Fin 1) (0 : Fin 1) (0 : Fin 1)) := by
  refine broadcastTo_apply x _ _ _ fun a => ?_
  match a with
  | ⟨0, _⟩ => rfl
  | ⟨1, _⟩ => rfl
  | ⟨2, _⟩ => rfl
  | ⟨3, _⟩ => rfl
  | ⟨4, _⟩ => rfl

/-- A per-(b, t, h, w) block broadcast along the channels reads its (b, h, w) entry. -/
private theorem fuse_bcast_z (x : Vec Ideal S8x1x1x64x64 .f32) (b : Fin 8) (c : Fin 32) (h w : Fin 64) :
    broadcastTo S8x32x1x64x64 x broadcasts_S8x1x1x64x64_S8x32x1x64x64 (ix5 b c (0 : Fin 1) h w)
      = x (ix5 b (0 : Fin 1) (0 : Fin 1) h w) := by
  refine broadcastTo_apply x _ _ _ fun a => ?_
  match a with
  | ⟨0, _⟩ => rfl
  | ⟨1, _⟩ => rfl
  | ⟨2, _⟩ => rfl
  | ⟨3, _⟩ => rfl
  | ⟨4, _⟩ => rfl

/-- A per-(c, t, h, w) block broadcast along the batch reads its (c, h, w) entry. -/
private theorem fuse_bcast_s (x : Vec Ideal S1x32x1x64x64 .f32) (b : Fin 8) (c : Fin 32) (h w : Fin 64) :
    broadcastTo S8x32x1x64x64 x broadcasts_S1x32x1x64x64_S8x32x1x64x64 (ix5 b c (0 : Fin 1) h w)
      = x (ix5 (0 : Fin 1) c (0 : Fin 1) h w) := by
  refine broadcastTo_apply x _ _ _ fun a => ?_
  match a with
  | ⟨0, _⟩ => rfl
  | ⟨1, _⟩ => rfl
  | ⟨2, _⟩ => rfl
  | ⟨3, _⟩ => rfl
  | ⟨4, _⟩ => rfl

/-- The body's result at entry (b, c, 0, h, w) of its block is the gated value of the input's entry there, the mean and
    denominator at (b, c), the channel sum at (b, h, w) times 1/32 and the batch sum at (c, h, w) times 1/8. -/
private theorem fuse_pay (x0 : Vec Ideal S8x32x1x64x64 .f32) (x1 : Vec Ideal S8x1x1x64x64 .f32)
    (x2 : Vec Ideal S1x32x1x64x64 .f32) (x3 x4 : Vec Ideal S8x32x1x1x1 .f32)
    (b : Fin 8) (c : Fin 32) (h w : Fin 64) :
    k1_pay1 x0 x1 x2 x3 x4 (ix5 b c (0 : Fin 1) h w)
      = Cert.Spec.gate (x0 (ix5 b c (0 : Fin 1) h w)) (x3 (ix5 b c (0 : Fin 1) (0 : Fin 1) (0 : Fin 1)))
          (x4 (ix5 b c (0 : Fin 1) (0 : Fin 1) (0 : Fin 1)))
          (x1 (ix5 b (0 : Fin 1) (0 : Fin 1) h w) * Cert.Spec.inv32)
          (x2 (ix5 (0 : Fin 1) c (0 : Fin 1) h w) * Cert.Spec.inv8) := by
  unfold k1_pay1
  simp only [shapeCast_self]
  unfold Cert.Spec.gate Cert.Spec.inv32 Cert.Spec.inv8 Cert.Spec.half
  simp only [mulf_apply, addf_apply, subf_apply, divf_apply, broadcast_apply, logistic, Ideal.logistic_def,
    Ideal.ofBits_def]
  rw [fuse_bcast_bc x3 b c h w, fuse_bcast_bc x4 b c h w, fuse_bcast_z _ b c h w, fuse_bcast_s _ b c h w]
  rfl

/-! ## From the blocks to the array -/

/-- The zero offsets, as the constant function. -/
private theorem fuse_hz : (![0, 0, 0, 0, 0] : Fin 5 → Nat) = fun _ => 0 := funext fun a => by fin_cases a <;> rfl

/-- The block index maps over the grid: every window sits at block 0 on every axis but time; on the time axis the input's,
    the two sums' and the result's windows sit at the point's number, the per-(b, c) windows at 0. -/
private theorem fuse_idx : ∀ t : Fin cfg1.N,
    (win1_0.index t (0 : Fin 5) = 0 ∧ win1_0.index t (1 : Fin 5) = 0 ∧ win1_0.index t (2 : Fin 5) = t.val
      ∧ win1_0.index t (3 : Fin 5) = 0 ∧ win1_0.index t (4 : Fin 5) = 0)
    ∧ (win1_1.index t (0 : Fin 5) = 0 ∧ win1_1.index t (1 : Fin 5) = 0 ∧ win1_1.index t (2 : Fin 5) = t.val
      ∧ win1_1.index t (3 : Fin 5) = 0 ∧ win1_1.index t (4 : Fin 5) = 0)
    ∧ (win1_2.index t (0 : Fin 5) = 0 ∧ win1_2.index t (1 : Fin 5) = 0 ∧ win1_2.index t (2 : Fin 5) = t.val
      ∧ win1_2.index t (3 : Fin 5) = 0 ∧ win1_2.index t (4 : Fin 5) = 0)
    ∧ (win1_3.index t (0 : Fin 5) = 0 ∧ win1_3.index t (1 : Fin 5) = 0 ∧ win1_3.index t (2 : Fin 5) = 0
      ∧ win1_3.index t (3 : Fin 5) = 0 ∧ win1_3.index t (4 : Fin 5) = 0)
    ∧ (win1_4.index t (0 : Fin 5) = 0 ∧ win1_4.index t (1 : Fin 5) = 0 ∧ win1_4.index t (2 : Fin 5) = 0
      ∧ win1_4.index t (3 : Fin 5) = 0 ∧ win1_4.index t (4 : Fin 5) = 0)
    ∧ (win1_5.index t (0 : Fin 5) = 0 ∧ win1_5.index t (1 : Fin 5) = 0 ∧ win1_5.index t (2 : Fin 5) = t.val
      ∧ win1_5.index t (3 : Fin 5) = 0 ∧ win1_5.index t (4 : Fin 5) = 0) :=
  (by decide +kernel : ∀ t : Fin grid1.N, _)

/-- A point's number as a time step. -/
private def fuse_step (t : Fin cfg1.N) : Fin 32 := ⟨t.val, lt_of_lt_of_eq t.isLt N_1⟩

/-- The input's block at point t holds the input's entries at time step t. -/
private theorem fuse_blk0 (c : Dev nD) (t : Fin cfg1.N) (b : Fin 8) (ch : Fin 32) (h w : Fin 64) :
    (iblk1 V c 0 t : Vec Ideal S8x32x1x64x64 .f32) (ix5 b ch (0 : Fin 1) h w)
      = (V c main_arg0 : S8x32x32x64x64.Idx → EReal) (ix5 b ch (fuse_step t) h w) := by
  obtain ⟨e0, e1, e2, e3, e4⟩ := (fuse_idx t).1
  show V c main_arg0 (((cfg1.win 0).blk t).view.emb (ix5 b ch (0 : Fin 1) h w)) = V c main_arg0 (ix5 b ch (fuse_step t) h w)
  refine congrArg (V c main_arg0) (funext fun a => Fin.ext ?_)
  match a with
  | ⟨0, _⟩ => show win1_0.index t (0 : Fin 5) * 8 + 1 * b.val = b.val; rw [e0]; omega
  | ⟨1, _⟩ => show win1_0.index t (1 : Fin 5) * 32 + 1 * ch.val = ch.val; rw [e1]; omega
  | ⟨2, _⟩ => show win1_0.index t (2 : Fin 5) * 1 + 1 * 0 = t.val; rw [e2]; omega
  | ⟨3, _⟩ => show win1_0.index t (3 : Fin 5) * 64 + 1 * h.val = h.val; rw [e3]; omega
  | ⟨4, _⟩ => show win1_0.index t (4 : Fin 5) * 64 + 1 * w.val = w.val; rw [e4]; omega

/-- The channel sums' block at point t holds their entries at time step t. -/
private theorem fuse_blk1 (c : Dev nD) (t : Fin cfg1.N) (b : Fin 8) (h w : Fin 64) :
    (iblk1 V c 1 t : Vec Ideal S8x1x1x64x64 .f32) (ix5 b (0 : Fin 1) (0 : Fin 1) h w)
      = (V c main_v0_0 : S8x1x32x64x64.Idx → EReal) (ix5 b (0 : Fin 1) (fuse_step t) h w) := by
  obtain ⟨e0, e1, e2, e3, e4⟩ := (fuse_idx t).2.1
  show V c main_v0_0 (((cfg1.win 1).blk t).view.emb (ix5 b (0 : Fin 1) (0 : Fin 1) h w)) = V c main_v0_0 (ix5 b (0 : Fin 1) (fuse_step t) h w)
  refine congrArg (V c main_v0_0) (funext fun a => Fin.ext ?_)
  match a with
  | ⟨0, _⟩ => show win1_1.index t (0 : Fin 5) * 8 + 1 * b.val = b.val; rw [e0]; omega
  | ⟨1, _⟩ => show win1_1.index t (1 : Fin 5) * 1 + 1 * 0 = 0; rw [e1]
  | ⟨2, _⟩ => show win1_1.index t (2 : Fin 5) * 1 + 1 * 0 = t.val; rw [e2]; omega
  | ⟨3, _⟩ => show win1_1.index t (3 : Fin 5) * 64 + 1 * h.val = h.val; rw [e3]; omega
  | ⟨4, _⟩ => show win1_1.index t (4 : Fin 5) * 64 + 1 * w.val = w.val; rw [e4]; omega

/-- The batch sums' block at point t holds their entries at time step t. -/
private theorem fuse_blk2 (c : Dev nD) (t : Fin cfg1.N) (ch : Fin 32) (h w : Fin 64) :
    (iblk1 V c 2 t : Vec Ideal S1x32x1x64x64 .f32) (ix5 (0 : Fin 1) ch (0 : Fin 1) h w)
      = (V c main_v0_1 : S1x32x32x64x64.Idx → EReal) (ix5 (0 : Fin 1) ch (fuse_step t) h w) := by
  obtain ⟨e0, e1, e2, e3, e4⟩ := (fuse_idx t).2.2.1
  show V c main_v0_1 (((cfg1.win 2).blk t).view.emb (ix5 (0 : Fin 1) ch (0 : Fin 1) h w)) = V c main_v0_1 (ix5 (0 : Fin 1) ch (fuse_step t) h w)
  refine congrArg (V c main_v0_1) (funext fun a => Fin.ext ?_)
  match a with
  | ⟨0, _⟩ => show win1_2.index t (0 : Fin 5) * 1 + 1 * 0 = 0; rw [e0]
  | ⟨1, _⟩ => show win1_2.index t (1 : Fin 5) * 32 + 1 * ch.val = ch.val; rw [e1]; omega
  | ⟨2, _⟩ => show win1_2.index t (2 : Fin 5) * 1 + 1 * 0 = t.val; rw [e2]; omega
  | ⟨3, _⟩ => show win1_2.index t (3 : Fin 5) * 64 + 1 * h.val = h.val; rw [e3]; omega
  | ⟨4, _⟩ => show win1_2.index t (4 : Fin 5) * 64 + 1 * w.val = w.val; rw [e4]; omega

/-- The means' block at every point is the whole array. -/
private theorem fuse_blk3 (c : Dev nD) (t : Fin cfg1.N) (b : Fin 8) (ch : Fin 32) :
    (iblk1 V c 3 t : Vec Ideal S8x32x1x1x1 .f32) (ix5 b ch (0 : Fin 1) (0 : Fin 1) (0 : Fin 1))
      = (V c main_v2 : S8x32x1x1x1.Idx → EReal) (ix5 b ch (0 : Fin 1) (0 : Fin 1) (0 : Fin 1)) := by
  obtain ⟨e0, e1, e2, e3, e4⟩ := (fuse_idx t).2.2.2.1
  show V c main_v2 (((cfg1.win 3).blk t).view.emb (ix5 b ch (0 : Fin 1) (0 : Fin 1) (0 : Fin 1))) = V c main_v2 (ix5 b ch (0 : Fin 1) (0 : Fin 1) (0 : Fin 1))
  refine congrArg (V c main_v2) (funext fun a => Fin.ext ?_)
  match a with
  | ⟨0, _⟩ => show win1_3.index t (0 : Fin 5) * 8 + 1 * b.val = b.val; rw [e0]; omega
  | ⟨1, _⟩ => show win1_3.index t (1 : Fin 5) * 32 + 1 * ch.val = ch.val; rw [e1]; omega
  | ⟨2, _⟩ => show win1_3.index t (2 : Fin 5) * 1 + 1 * 0 = 0; rw [e2]
  | ⟨3, _⟩ => show win1_3.index t (3 : Fin 5) * 1 + 1 * 0 = 0; rw [e3]
  | ⟨4, _⟩ => show win1_3.index t (4 : Fin 5) * 1 + 1 * 0 = 0; rw [e4]

/-- The denominators' block at every point is the whole array. -/
private theorem fuse_blk4 (c : Dev nD) (t : Fin cfg1.N) (b : Fin 8) (ch : Fin 32) :
    (iblk1 V c 4 t : Vec Ideal S8x32x1x1x1 .f32) (ix5 b ch (0 : Fin 1) (0 : Fin 1) (0 : Fin 1))
      = (V c main_v12 : S8x32x1x1x1.Idx → EReal) (ix5 b ch (0 : Fin 1) (0 : Fin 1) (0 : Fin 1)) := by
  obtain ⟨e0, e1, e2, e3, e4⟩ := (fuse_idx t).2.2.2.2.1
  show V c main_v12 (((cfg1.win 4).blk t).view.emb (ix5 b ch (0 : Fin 1) (0 : Fin 1) (0 : Fin 1))) = V c main_v12 (ix5 b ch (0 : Fin 1) (0 : Fin 1) (0 : Fin 1))
  refine congrArg (V c main_v12) (funext fun a => Fin.ext ?_)
  match a with
  | ⟨0, _⟩ => show win1_4.index t (0 : Fin 5) * 8 + 1 * b.val = b.val; rw [e0]; omega
  | ⟨1, _⟩ => show win1_4.index t (1 : Fin 5) * 32 + 1 * ch.val = ch.val; rw [e1]; omega
  | ⟨2, _⟩ => show win1_4.index t (2 : Fin 5) * 1 + 1 * 0 = 0; rw [e2]
  | ⟨3, _⟩ => show win1_4.index t (3 : Fin 5) * 1 + 1 * 0 = 0; rw [e3]
  | ⟨4, _⟩ => show win1_4.index t (4 : Fin 5) * 1 + 1 * 0 = 0; rw [e4]

/-- Entry (b, c, 0, h, w) of the result's block at point t is entry (b, c, t, h, w) of the result array. -/
private theorem fuse_emb5 (t : Fin cfg1.N) (b : Fin 8) (ch : Fin 32) (h w : Fin 64) :
    (((cfg1.win 5).blk t).view.emb (ix5 b ch (0 : Fin 1) h w) : S8x32x32x64x64.Idx) = ix5 b ch (fuse_step t) h w := by
  obtain ⟨e0, e1, e2, e3, e4⟩ := (fuse_idx t).2.2.2.2.2
  refine funext fun a => Fin.ext ?_
  match a with
  | ⟨0, _⟩ => show win1_5.index t (0 : Fin 5) * 8 + 1 * b.val = b.val; rw [e0]; omega
  | ⟨1, _⟩ => show win1_5.index t (1 : Fin 5) * 32 + 1 * ch.val = ch.val; rw [e1]; omega
  | ⟨2, _⟩ => show win1_5.index t (2 : Fin 5) * 1 + 1 * 0 = t.val; rw [e2]; omega
  | ⟨3, _⟩ => show win1_5.index t (3 : Fin 5) * 64 + 1 * h.val = h.val; rw [e3]; omega
  | ⟨4, _⟩ => show win1_5.index t (4 : Fin 5) * 64 + 1 * w.val = w.val; rw [e4]; omega

/-- The body's result at one entry of point t's block is the gated value at the entry's place in the arrays. -/
private theorem fuse_point (c : Dev nD) (t : Fin cfg1.N) (b : Fin 8) (ch : Fin 32) (h w : Fin 64) :
    k1_pay1 (iblk1 V c 0 t) (iblk1 V c 1 t) (iblk1 V c 2 t) (iblk1 V c 3 t) (iblk1 V c 4 t) (ix5 b ch (0 : Fin 1) h w)
      = Cert.Spec.fusePt (V c main_arg0) (V c main_v0_0) (V c main_v0_1) (V c main_v2) (V c main_v12)
          (ix5 b ch (fuse_step t) h w) := by
  refine (fuse_pay (iblk1 V c 0 t) (iblk1 V c 1 t) (iblk1 V c 2 t) (iblk1 V c 3 t) (iblk1 V c 4 t) b ch h w).trans ?_
  rw [fuse_blk0 V c t b ch h w, fuse_blk1 V c t b h w, fuse_blk2 V c t ch h w, fuse_blk3 V c t b ch, fuse_blk4 V c t b ch]
  rfl

/-- What point t writes back is block t of the gated array. -/
private theorem fuse_flushed (c : Dev nD) (t : Fin cfg1.N) :
    (dat1 V c).flushed 5 t
      = ((cfg1.win 5).blk t).view.read (Elt Ideal)
          (Cert.Spec.fusePt (V c main_arg0) (V c main_v0_0) (V c main_v0_1) (V c main_v2) (V c main_v12)) := by
  show (cfg1.win 5).cut (grid1.coords t) ((dat1 V c).after 5 t) = _
  rw [after1_5]
  unfold out1_5
  rw [View.canon_unit_zero fuse_hz]
  simp only [View.ld_unit_zero (S := S8x32x1x64x64) fuse_hz, View.ld_unit_zero (S := S8x1x1x64x64) fuse_hz,
    View.ld_unit_zero (S := S1x32x1x64x64) fuse_hz, View.ld_unit_zero (S := S8x32x1x1x1) fuse_hz]
  refine funext fun (j : S8x32x1x64x64.Idx) => ?_
  obtain ⟨b, ch, z, h, w, rfl⟩ : ∃ (b : Fin 8) (ch : Fin 32) (z : Fin 1) (h w : Fin 64), j = ix5 b ch z h w :=
    ⟨j 0, j 1, j 2, j 3, j 4, eq_ix5 j⟩
  obtain rfl : z = 0 := Subsingleton.elim _ _
  show k1_pay1 (iblk1 V c 0 t) (iblk1 V c 1 t) (iblk1 V c 2 t) (iblk1 V c 3 t) (iblk1 V c 4 t) (ix5 b ch (0 : Fin 1) h w)
      = Cert.Spec.fusePt (V c main_arg0) (V c main_v0_0) (V c main_v0_1) (V c main_v2) (V c main_v12)
          (((cfg1.win 5).blk t).view.emb (ix5 b ch (0 : Fin 1) h w))
  rw [fuse_emb5 t b ch h w]
  exact fuse_point V c t b ch h w

/-- An index of the result array is in point t's block iff each coordinate is in the block's range on its axis. -/
private theorem fuse_mem_blk (t : Fin cfg1.N) (i : S8x32x32x64x64.Idx) :
    i ∈ ((cfg1.win 5).blk t).view.set
      ↔ ∀ a : Fin 5, win1_5.index t a * S8x32x1x64x64.size a ≤ (i a).val
          ∧ (i a).val < win1_5.index t a * S8x32x1x64x64.size a + S8x32x1x64x64.size a := by
  show i ∈ ((View.whole main_v13).slice (win1_5.rect t)).set ↔ _
  rw [View.set_slice_whole, Rect.mem_set_unit]
  exact Iff.rfl

/-- Every index of the result array is in the block of the point whose number is the index's time step. -/
private theorem fuse_cover (i : S8x32x32x64x64.Idx) :
    ∃ t : Fin cfg1.N, (cfg1.win 5).flush t = true ∧ i ∈ ((cfg1.win 5).blk t).view.set := by
  have h0 : (i 0).val < 8 := (i 0).isLt
  have h1 : (i 1).val < 32 := (i 1).isLt
  have h2 : (i 2).val < 32 := (i 2).isLt
  have h3 : (i 3).val < 64 := (i 3).isLt
  have h4 : (i 4).val < 64 := (i 4).isLt
  refine ⟨⟨(i 2).val, lt_of_lt_of_eq h2 N_1.symm⟩, flush1_5 _, ?_⟩
  obtain ⟨e0, e1, e2, e3, e4⟩ := (fuse_idx ⟨(i 2).val, lt_of_lt_of_eq h2 N_1.symm⟩).2.2.2.2.2
  rw [fuse_mem_blk]
  intro a
  match a with
  | ⟨0, _⟩ => show win1_5.index _ (0 : Fin 5) * 8 ≤ (i 0).val ∧ (i 0).val < win1_5.index _ (0 : Fin 5) * 8 + 8; rw [e0]; omega
  | ⟨1, _⟩ => show win1_5.index _ (1 : Fin 5) * 32 ≤ (i 1).val ∧ (i 1).val < win1_5.index _ (1 : Fin 5) * 32 + 32; rw [e1]; omega
  | ⟨2, _⟩ => show win1_5.index _ (2 : Fin 5) * 1 ≤ (i 2).val ∧ (i 2).val < win1_5.index _ (2 : Fin 5) * 1 + 1; rw [e2]; show (i 2).val * 1 ≤ (i 2).val ∧ (i 2).val < (i 2).val * 1 + 1; omega
  | ⟨3, _⟩ => show win1_5.index _ (3 : Fin 5) * 64 ≤ (i 3).val ∧ (i 3).val < win1_5.index _ (3 : Fin 5) * 64 + 64; rw [e3]; omega
  | ⟨4, _⟩ => show win1_5.index _ (4 : Fin 5) * 64 ≤ (i 4).val ∧ (i 4).val < win1_5.index _ (4 : Fin 5) * 64 + 64; rw [e4]; omega

/-- The result array after the region: the gated value at every (b, c, t, h, w), from the input at that index, the
    per-(b, c) mean and denominator, and the channel and batch sums scaled by 1/32 and 1/8. -/
theorem fuse_final (c : Dev nD) :
    (dat1 V c).arrAt 5 cfg1.N
      = Cert.Spec.fusePt (V c main_arg0) (V c main_v0_0) (V c main_v0_1) (V c main_v2) (V c main_v12) := by
  exact (dat1 V c).arrAt_eq_of_cover 5
    (Cert.Spec.fusePt (V c main_arg0) (V c main_v0_0) (V c main_v0_1) (V c main_v2) (V c main_v12))
    (fun t _ => fuse_flushed V c t) fuse_cover

end Cert.KernelIdeal.Val

end
-- ==== Proof.KernelValue.lean ====
/-
  The kernel program's result, as a function of its input.

  Region 0 leaves the channel sums, the batch sums and the two accumulators; the host operations turn the accumulators into
  the mean and the denominator; region 1 gates every entry with them.  Read back through the three segments, the result
  array is the specification's `kerOut` of the launch contents of the input.
-/
import proofs.«173700_j35622458753953_1_alg».proof.Proof.RunResult
import proofs.«173700_j35622458753953_1_alg».proof.Proof.HostOps
import proofs.«173700_j35622458753953_1_alg».proof.Proof.StatsFinal
import proofs.«173700_j35622458753953_1_alg».proof.Proof.Fuse
import proofs.«173700_j35622458753953_1_alg».proof.Proof.Spec

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The input as launched. -/
abbrev X0 (c : Dev nD) : Cert.Spec.SX.Idx → EReal := m ((c : Thread nD τ).loc main_arg0)

/-- Region 0 leaves the input as launched. -/
theorem V1_arg0 (c : Dev nD) : V1 m ρ c main_arg0 = X0 m c :=
  (W1_arr m ρ c 0).trans (((dat0 (V0 m ρ) c).arrAt_in 0 rfl _).trans (A_eq0 (V0 m ρ) c 0))

/-- Region 1 finds the input as launched, -/
theorem V2_arg0_eq (c : Dev nD) : V2 m ρ c main_arg0 = X0 m c := (V2_arg0 m ρ c).trans (V1_arg0 m ρ c)
/-- the channel sums, -/
theorem V2_v0_0_eq (c : Dev nD) :
    V2 m ρ c main_v0_0 = fun i => Cert.Spec.sumC (X0 m c) (i 0) (i 2) (i 3) (i 4) :=
  (V2_v0_0 m ρ c).trans ((W1_arr m ρ c 1).trans (zsum_final (V0 m ρ) c))
/-- the batch sums, -/
theorem V2_v0_1_eq (c : Dev nD) :
    V2 m ρ c main_v0_1 = fun i => Cert.Spec.sumB (X0 m c) (i 1) (i 2) (i 3) (i 4) :=
  (V2_v0_1 m ρ c).trans ((W1_arr m ρ c 2).trans (ssum_final (V0 m ρ) c))
/-- The two accumulators after region 0: the sum and the sum of squares over time and space. -/
theorem musumArr_eq (c : Dev nD) :
    musumArr m ρ c = fun i => Cert.Spec.sumTHW (X0 m c) (i 0) (i 1) :=
  (W1_arr m ρ c 3).trans (musum_final (V0 m ρ) c)
theorem sqsumArr_eq (c : Dev nD) :
    sqsumArr m ρ c = fun i => Cert.Spec.sumTHW (Cert.Spec.sqr (X0 m c)) (i 0) (i 1) :=
  (W1_arr m ρ c 4).trans (sqsum_final (V0 m ρ) c)

/-- the mean at (b, c), -/
theorem V2_v2_eq (c : Dev nD) (b : Fin 8) (k : Fin 32) :
    V2 m ρ c main_v2 (ix5 b k (0 : Fin 1) (0 : Fin 1) (0 : Fin 1)) = Cert.Spec.mu (X0 m c) b k := by
  rw [V2_v2_apply, musumArr_eq]
  rfl
/-- and the kernel's denominator at (b, c). -/
theorem V2_v12_eq (c : Dev nD) (b : Fin 8) (k : Fin 32) :
    V2 m ρ c main_v12 (ix5 b k (0 : Fin 1) (0 : Fin 1) (0 : Fin 1)) = Cert.Spec.denK (X0 m c) b k := by
  rw [V2_v12_apply, musumArr_eq, sqsumArr_eq]
  rfl

/-- A [8, 32, 1, 1, 1] index is (b, c, 0, 0, 0). -/
private theorem eq_ix5_unit (i : S8x32x1x1x1.Idx) : i = ix5 (i 0) (i 1) (0 : Fin 1) (0 : Fin 1) (0 : Fin 1) := by
  funext a
  match a with
  | ⟨0, _⟩ => rfl
  | ⟨1, _⟩ => rfl
  | ⟨2, _⟩ => exact Fin.ext (Nat.lt_one_iff.mp (i 2).isLt)
  | ⟨3, _⟩ => exact Fin.ext (Nat.lt_one_iff.mp (i 3).isLt)
  | ⟨4, _⟩ => exact Fin.ext (Nat.lt_one_iff.mp (i 4).isLt)

/-- The mean and denominator arrays region 1 finds, whole. -/
theorem V2_v2_arr (c : Dev nD) : V2 m ρ c main_v2 = fun i => Cert.Spec.mu (X0 m c) (i 0) (i 1) := by
  funext i
  rw [eq_ix5_unit i]
  exact V2_v2_eq m ρ c (i 0) (i 1)
theorem V2_v12_arr (c : Dev nD) : V2 m ρ c main_v12 = fun i => Cert.Spec.denK (X0 m c) (i 0) (i 1) := by
  funext i
  rw [eq_ix5_unit i]
  exact V2_v12_eq m ρ c (i 0) (i 1)

/-- The result array after the run is the kernel's specification of the input as launched. -/
theorem result_eq (c : Dev nD) : W3 m ρ c (Proc.devRef .tc main_v13) = Cert.Spec.kerOut (X0 m c) := by
  refine (W3_arr m ρ c 5).trans ((fuse_final (V2 m ρ) c).trans ?_)
  rw [V2_arg0_eq, V2_v0_0_eq, V2_v0_1_eq, V2_v2_arr, V2_v12_arr]
  funext i
  obtain ⟨b, k, t, h, w, rfl⟩ : ∃ (b : Fin 8) (k : Fin 32) (t : Fin 32) (h w : Fin 64), i = ix5 b k t h w :=
    ⟨i 0, i 1, i 2, i 3, i 4, eq_ix5 i⟩
  rfl

/-- The kernel program's run, read: every weakly fair execution terminates with the result array at the kernel's
    specification of the input, and the input as launched. -/
theorem run : θ_run defs (onTc (τ := τ) (main (F := Ideal))) ⟨m, fun _ => 0, ρ⟩ (fun r => ∀ c : Dev nD,
      r.2.mem ((c.tc : Thread nD τ).loc main_v13) = Cert.Spec.kerOut (X0 m c)
      ∧ r.2.mem ((c.tc : Thread nD τ).loc main_arg0) = m ((c.tc : Thread nD τ).loc main_arg0)) :=
  (θ_run defs _ _).mono (fun _ h c => ⟨(h c).1.trans (result_eq m ρ c), (h c).2⟩) (run_result m ρ)

end Cert.KernelIdeal.Val

end
-- ==== Proof.RefValue.lean ====
/-
  The reference, read at an index: its 60 host operations compose to the specification's `refOut` — the three families of
  sums (each from a zero initial value), the mean, the sum of squared deviations, the denominator, the two means by
  division, and the two logistic gates spelled as `1 / (1 + e^(−·))`.
-/
import proofs.«173700_j35622458753953_1_alg».proof.Proof.Gen.ReferenceIdeal.Read
import proofs.«173700_j35622458753953_1_alg».proof.Proof.Spec
import Idealize.ShloMosaic.Lib.ValueIdx
import Idealize.ShloMosaic.PureOps.Ideal.Laws
import Idealize.ShloMosaic.Lib.IdealHost

noncomputable section

namespace Cert.ReferenceIdeal.RefVal

open Idealize.ShloMosaic Idealize.ShloMosaic.TcCoe Idealize.SL.Sem Idealize.ShloMosaic.ValueIdx
open Cert.ReferenceIdeal Cert.ReferenceIdeal.Gen Cert.ReferenceIdeal.Read

/-! ## The sum over time, rows and columns, re-indexed by coordinates -/

/-- The indices of the input with batch `b` and channel `c`, one per (t, h, w). -/
private def thwEmb (b : Fin 8) (c : Fin 32) : Fin 32 × Fin 64 × Fin 64 ↪ S8x32x32x64x64.Idx :=
  ⟨fun p => ix5 b c p.1 p.2.1 p.2.2, fun p q h =>
    Prod.ext (congrFun h 2) (Prod.ext (congrFun h 3) (congrFun h 4))⟩

/-- The input indices that drop to (b, c) when time, rows and columns are removed are exactly the (b, c, t, h, w). -/
private theorem filter_drop_thw (hr : S8x32x32x64x64.ReducesTo [2, 3, 4] S8x32) (j : S8x32.Idx)
    [DecidablePred fun i : S8x32x32x64x64.Idx => hr.drop i = j] :
    Finset.univ.filter (fun i : S8x32x32x64x64.Idx => hr.drop i = j) = Finset.univ.map (thwEmb (j 0) (j 1)) := by
  ext i
  simp only [Finset.mem_filter, Finset.mem_univ, true_and, Finset.mem_map, thwEmb, Function.Embedding.coeFn_mk]
  constructor
  · intro h
    refine ⟨(i 2, i 3, i 4), ?_⟩
    subst h
    funext a
    match a with
    | ⟨0, _⟩ => rfl
    | ⟨1, _⟩ => rfl
    | ⟨2, _⟩ => rfl
    | ⟨3, _⟩ => rfl
    | ⟨4, _⟩ => rfl
  · rintro ⟨p, rfl⟩
    funext b
    match b with
    | ⟨0, _⟩ => rfl
    | ⟨1, _⟩ => rfl

/-- So a sum over them is the triple sum over time, rows and columns. -/
private theorem sum_drop_thw (hr : S8x32x32x64x64.ReducesTo [2, 3, 4] S8x32) (X : S8x32x32x64x64.Idx → EReal) (j : S8x32.Idx)
    [DecidablePred fun i : S8x32x32x64x64.Idx => hr.drop i = j] :
    ∑ i ∈ Finset.univ.filter (fun i : S8x32x32x64x64.Idx => hr.drop i = j), X i
      = ∑ t : Fin 32, ∑ h : Fin 64, ∑ w : Fin 64, X (ix5 (j 0) (j 1) t h w) := by
  rw [filter_drop_thw, Finset.sum_map, Fintype.sum_prod_type]
  refine Finset.sum_congr rfl fun t _ => ?_
  rw [Fintype.sum_prod_type]
  rfl

/-- The host's sum over time, rows and columns from a zero initial value is the specification's triple sum. -/
private theorem reduce_thw (X : FVec Ideal S8x32x32x64x64 .f32) (init : S_.Idx → Ideal .f32)
    (h0 : init (Shape.Idx.first h_S_) = 0) (j : S8x32.Idx) :
    Host.reduceAdd (F := Ideal) X init reducesTo_S8x32x32x64x64_S8x32_d2_3_4 h_S_ j = Cert.Spec.sumTHW X (j 0) (j 1) := by
  rw [hostReduceAdd_apply]
  unfold Ideal.hostReduceAdd
  rw [sum_drop_thw, h0, zero_add]
  rfl

/-! ## The stages, read at an index -/

/-- Stage 8: the sum of the input over time, rows and columns. -/
private theorem v8_at (x0 : (⟨S8x32x32x64x64, .f32⟩ : BufTy).Contents (Elt Ideal)) (j : S8x32.Idx) :
    val_main_v8 (F := Ideal) x0 j = Cert.Spec.sumTHW x0 (j 0) (j 1) := by
  unfold val_main_v8
  exact reduce_thw x0 _ (by rw [val_main_cst_3_apply, Ideal.ofBits_def, Ideal.ofBits_zero_f32]) j

/-- Stage 11: the mean. -/
private theorem v11_at (x0 : (⟨S8x32x32x64x64, .f32⟩ : BufTy).Contents (Elt Ideal)) (i : S8x32x1x1x1.Idx) :
    val_main_v11 (F := Ideal) x0 i = Cert.Spec.mu x0 (i 0) (i 1) := by
  rw [val_main_v11_apply, val_main_v9_apply, val_main_v10_apply, val_main_cst_4_apply, v8_at]
  rfl

/-- Stage 12: the mean, broadcast. -/
private theorem v12_at (x0 : (⟨S8x32x32x64x64, .f32⟩ : BufTy).Contents (Elt Ideal)) (i : S8x32x32x64x64.Idx) :
    val_main_v12 (F := Ideal) x0 i = Cert.Spec.mu x0 (i 0) (i 1) := by
  rw [val_main_v12_apply, v11_at]
  rfl

/-- Stage 14: the squared deviation. -/
private theorem v14_at (x0 : (⟨S8x32x32x64x64, .f32⟩ : BufTy).Contents (Elt Ideal)) (i : S8x32x32x64x64.Idx) :
    val_main_v14 (F := Ideal) x0 i = (x0 i - Cert.Spec.mu x0 (i 0) (i 1)) * (x0 i - Cert.Spec.mu x0 (i 0) (i 1)) := by
  rw [val_main_v14_apply, val_main_v13_apply, v12_at]
  rfl

/-- Stage 15: the sum of the squared deviations over time, rows and columns. -/
private theorem v15_at (x0 : (⟨S8x32x32x64x64, .f32⟩ : BufTy).Contents (Elt Ideal)) (j : S8x32.Idx) :
    val_main_v15 (F := Ideal) x0 j
      = Cert.Spec.sumTHW (fun i => (x0 i - Cert.Spec.mu x0 (j 0) (j 1)) * (x0 i - Cert.Spec.mu x0 (j 0) (j 1))) (j 0) (j 1) := by
  unfold val_main_v15
  rw [reduce_thw _ _ (by rw [val_main_cst_5_apply, Ideal.ofBits_def, Ideal.ofBits_zero_f32]) j]
  unfold Cert.Spec.sumTHW
  refine Finset.sum_congr rfl fun t _ => Finset.sum_congr rfl fun h _ => Finset.sum_congr rfl fun w _ => ?_
  rw [v14_at]

/-- Stage 22: the reference's denominator. -/
private theorem v22_at (x0 : (⟨S8x32x32x64x64, .f32⟩ : BufTy).Contents (Elt Ideal)) (i : S8x32x1x1x1.Idx) :
    val_main_v22 (F := Ideal) x0 i = Cert.Spec.denR x0 (i 0) (i 1) := by
  rw [val_main_v22_apply, val_main_v21_apply, val_main_cst_8_apply, val_main_v20_apply, val_main_v18_apply,
    val_main_v16_apply, val_main_v17_apply, val_main_cst_6_apply, val_main_v19_apply, val_main_cst_7_apply, v15_at]
  rfl

/-- Stage 26: `y`, the squared deviation over the denominator, plus one half. -/
private theorem v26_at (x0 : (⟨S8x32x32x64x64, .f32⟩ : BufTy).Contents (Elt Ideal)) (i : S8x32x32x64x64.Idx) :
    val_main_v26 (F := Ideal) x0 i
      = Ideal.div ((x0 i - Cert.Spec.mu x0 (i 0) (i 1)) * (x0 i - Cert.Spec.mu x0 (i 0) (i 1))) (Cert.Spec.denR x0 (i 0) (i 1))
        + Cert.Spec.half := by
  rw [val_main_v26_apply, val_main_v24_apply, val_main_v25_apply, val_main_cst_9_apply, val_main_v23_apply, v22_at, v14_at]
  rfl

/-- Stage 33: the input times the first gate. -/
private theorem v33_at (x0 : (⟨S8x32x32x64x64, .f32⟩ : BufTy).Contents (Elt Ideal)) (i : S8x32x32x64x64.Idx) :
    val_main_v33 (F := Ideal) x0 i = x0 i * Ideal.logistic (val_main_v26 (F := Ideal) x0 i) := by
  rw [val_main_v33_apply, val_main_v32_apply, val_main_v31_apply, val_main_cst_11_apply, val_main_v30_apply,
    val_main_v29_apply, val_main_cst_10_apply, val_main_v28_apply, val_main_v27_apply]
  simp only [Ideal.ofBits_def, Ideal.ofBits_one_f32]
  rfl

/-- Stage 3: the channel mean. -/
private theorem v3_at (x0 : (⟨S8x32x32x64x64, .f32⟩ : BufTy).Contents (Elt Ideal)) (i : S8x1x32x64x64.Idx) :
    val_main_v3 (F := Ideal) x0 i = Cert.Spec.zR x0 (i 0) (i 2) (i 3) (i 4) := by
  rw [val_main_v3_apply, val_main_v1_apply, val_main_v0_apply, val_main_v2_apply, val_main_cst_0_apply,
    val_main_cst_apply, Ideal.ofBits_def, Ideal.ofBits_zero_f32, zero_add]
  unfold Cert.Spec.zR Cert.Spec.sumC
  refine congrArg (fun s => Ideal.div s _) (Finset.sum_congr rfl fun k _ => congrArg x0 (funext fun a => ?_))
  match a with
  | ⟨0, _⟩ => rfl
  | ⟨1, _⟩ => rfl
  | ⟨2, _⟩ => rfl
  | ⟨3, _⟩ => rfl
  | ⟨4, _⟩ => rfl

/-- Stage 7: the batch mean. -/
private theorem v7_at (x0 : (⟨S8x32x32x64x64, .f32⟩ : BufTy).Contents (Elt Ideal)) (i : S1x32x32x64x64.Idx) :
    val_main_v7 (F := Ideal) x0 i = Cert.Spec.sR x0 (i 1) (i 2) (i 3) (i 4) := by
  rw [val_main_v7_apply, val_main_v5_apply, val_main_v4_apply, val_main_v6_apply, val_main_cst_2_apply,
    val_main_cst_1_apply, Ideal.ofBits_def, Ideal.ofBits_zero_f32, zero_add]
  unfold Cert.Spec.sR Cert.Spec.sumB
  refine congrArg (fun s => Ideal.div s _) (Finset.sum_congr rfl fun k _ => congrArg x0 (funext fun a => ?_))
  match a with
  | ⟨0, _⟩ => rfl
  | ⟨1, _⟩ => rfl
  | ⟨2, _⟩ => rfl
  | ⟨3, _⟩ => rfl
  | ⟨4, _⟩ => rfl

/-- Stage 43: the second gate. -/
private theorem v43_at (x0 : (⟨S8x32x32x64x64, .f32⟩ : BufTy).Contents (Elt Ideal)) (i : S8x32x32x64x64.Idx) :
    val_main_v43 (F := Ideal) x0 i
      = Ideal.logistic ((val_main_v26 (F := Ideal) x0 i * Cert.Spec.zR x0 (i 0) (i 2) (i 3) (i 4))
          * Cert.Spec.sR x0 (i 1) (i 2) (i 3) (i 4)) := by
  rw [val_main_v43_apply, val_main_v42_apply, val_main_cst_13_apply, val_main_v41_apply, val_main_v40_apply,
    val_main_cst_12_apply, val_main_v39_apply, val_main_v38_apply, val_main_v37_apply, val_main_v35_apply,
    val_main_v34_apply, val_main_v36_apply, v3_at, v7_at]
  simp only [Ideal.ofBits_def, Ideal.ofBits_one_f32]
  rfl

/-- The reference's last stage, as a function of the input array, is the specification's reference result. -/
theorem ref_eq (x0 : (⟨S8x32x32x64x64, .f32⟩ : BufTy).Contents (Elt Ideal)) :
    val_main_v44 (F := Ideal) x0 = Cert.Spec.refOut x0 := by
  funext i
  obtain ⟨b, c, t, h, w, rfl⟩ : ∃ (b : Fin 8) (c : Fin 32) (t : Fin 32) (h w : Fin 64), i = ix5 b c t h w :=
    ⟨i 0, i 1, i 2, i 3, i 4, eq_ix5 i⟩
  rw [val_main_v44_apply, v33_at, v43_at, v26_at]
  rfl

end Cert.ReferenceIdeal.RefVal

end
-- ==== Proof.Algebra.lean ====
/-
  The two spellings of the result agree on finite inputs.

  The channel and batch means: dividing by 32 (by 8) is multiplying by 1/32 (by 1/8), on every extended real.  The
  denominator: for real entries with mean `mu = (Σ x) / n` over `n` = 131072 entries, `Σ (x − mu)² = Σ x² − n · mu²`;
  this is an identity of real numbers and is where finiteness of the input is used.
-/
import proofs.«173700_j35622458753953_1_alg».proof.Proof.Spec
import Idealize.ShloMosaic.PureOps.Ideal.Laws

noncomputable section

namespace Cert.Spec

open Idealize.ShloMosaic Idealize.ShloMosaic.ValueIdx

/-- The literals' values. -/
private theorem nFull_val : nFull = ((131072 : ℝ) : EReal) := by
  simp [nFull, Ideal.ofBits, Ideal.ieee, -EReal.coe_mul]; norm_num
private theorem c32_val : c32 = ((32 : ℝ) : EReal) := by
  simp [c32, Ideal.ofBits, Ideal.ieee, -EReal.coe_mul]; norm_num
private theorem c8_val : c8 = ((8 : ℝ) : EReal) := by
  simp [c8, Ideal.ofBits, Ideal.ieee, -EReal.coe_mul]; norm_num
private theorem inv32_val : inv32 = ((1 / 32 : ℝ) : EReal) := by
  simp [inv32, Ideal.ofBits, Ideal.ieee, -EReal.coe_mul]; norm_num
private theorem inv8_val : inv8 = ((1 / 8 : ℝ) : EReal) := by
  simp [inv8, Ideal.ofBits, Ideal.ieee, -EReal.coe_mul]; norm_num

/-- Dividing by 32 is multiplying by 1/32, on every extended real. -/
private theorem zK_eq_zR (X : SX.Idx → EReal) (b : Fin 8) (t : Fin 32) (h w : Fin 64) : zK X b t h w = zR X b t h w := by
  rw [zK, zR, c32_val, inv32_val, Ideal.div_coe (by norm_num : (32 : ℝ) ≠ 0)]

/-- Dividing by 8 is multiplying by 1/8, on every extended real. -/
private theorem sK_eq_sR (X : SX.Idx → EReal) (c : Fin 32) (t : Fin 32) (h w : Fin 64) : sK X c t h w = sR X c t h w := by
  rw [sK, sR, c8_val, inv8_val, Ideal.div_coe (by norm_num : (8 : ℝ) ≠ 0)]

/-- The coercion of a finite sum of reals is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum over time and space of a real array. -/
private def rsum (x : SX.Idx → ℝ) (b : Fin 8) (c : Fin 32) : ℝ :=
  ∑ t : Fin 32, ∑ h : Fin 64, ∑ w : Fin 64, x (ix5 b c t h w)

/-- On a real array the sum over time and space is the coercion of the real sum. -/
private theorem sumTHW_coe (x : SX.Idx → ℝ) (b : Fin 8) (c : Fin 32) :
    sumTHW (fun i => (x i : EReal)) b c = ((rsum x b c : ℝ) : EReal) := by
  simp only [sumTHW, rsum, coe_sum]

/-- For reals with `Σ g = n · m` over `n` = 131072 = 32 · 64 · 64 entries, `Σ (g − m)² = Σ g² − n · m²`. -/
private theorem dev_identity (g : Fin 32 → Fin 64 → Fin 64 → ℝ) (m : ℝ)
    (hm : (∑ t, ∑ h, ∑ w, g t h w) = 131072 * m) :
    (∑ t, ∑ h, ∑ w, (g t h w - m) * (g t h w - m))
      = (∑ t, ∑ h, ∑ w, g t h w * g t h w) - 131072 * (m * m) := by
  have e : ∀ t h w, (g t h w - m) * (g t h w - m) = g t h w * g t h w - 2 * m * g t h w + m * m :=
    fun t h w => by ring
  simp only [e, Finset.sum_add_distrib, Finset.sum_sub_distrib, ← Finset.mul_sum, hm, Finset.sum_const,
    Finset.card_univ, Fintype.card_fin, nsmul_eq_mul]
  push_cast
  ring

/-- For reals with mean `m = (Σ x) / n` over `n` = 131072 entries, `Σ (x − m)² = Σ x² − n · m²`. -/
private theorem rsum_dev (x : SX.Idx → ℝ) (b : Fin 8) (c : Fin 32) :
    rsum (fun i => (x i - rsum x b c * (1 / 131072)) * (x i - rsum x b c * (1 / 131072))) b c
      = rsum (fun i => x i * x i) b c
        - 131072 * ((rsum x b c * (1 / 131072)) * (rsum x b c * (1 / 131072))) :=
  dev_identity (fun t h w => x (ix5 b c t h w)) (rsum x b c * (1 / 131072)) (by unfold rsum; ring)

/-- The two denominators agree on a real input. -/
private theorem denK_eq_denR (X : SX.Idx → EReal) (hX : ∀ i, ∃ r : ℝ, X i = (r : EReal)) (b : Fin 8) (c : Fin 32) :
    denK X b c = denR X b c := by
  choose x hx using hX
  have hXx : X = fun i => (x i : EReal) := funext hx
  have hmu : mu (fun i => (x i : EReal)) b c = ((rsum x b c * (1 / 131072) : ℝ) : EReal) := by
    rw [mu, sumTHW_coe, nFull_val, Ideal.div_coe (by norm_num : (131072 : ℝ) ≠ 0), ← EReal.coe_mul]
  have hsq : sumTHW (sqr fun i => (x i : EReal)) b c = ((rsum (fun i => x i * x i) b c : ℝ) : EReal) := by
    rw [← sumTHW_coe]; simp only [EReal.coe_mul]; rfl
  have hdev : ∀ m : ℝ, sumTHW (fun i => ((x i : EReal) - (m : EReal)) * ((x i : EReal) - (m : EReal))) b c
      = ((rsum (fun i => (x i - m) * (x i - m)) b c : ℝ) : EReal) := by
    intro m; rw [← sumTHW_coe]; simp only [EReal.coe_mul, EReal.coe_sub]
  rw [hXx, denK, denR, hmu, hsq, hdev, nFull_val, ← EReal.coe_mul, ← EReal.coe_mul, ← EReal.coe_sub, rsum_dev]

/-- On an input whose every entry is a real number the kernel's result array is the reference's. -/
theorem kerOut_eq_refOut (X : SX.Idx → EReal) (hX : ∀ i, ∃ r : ℝ, X i = (r : EReal)) : kerOut X = refOut X := by
  funext i
  unfold kerOut refOut kerPt refPt
  rw [zK_eq_zR X (i 0) (i 2) (i 3) (i 4), sK_eq_sR X (i 1) (i 2) (i 3) (i 4), denK_eq_denR X hX (i 0) (i 1)]

end Cert.Spec

end
-- ==== Proof.Finite.lean ====
/-
  The precondition read: `finite_inputs` all ones says every entry of the input has absolute value below +∞, that is, is a
  real number.
-/
import proofs.«173700_j35622458753953_1_alg».proof.Pre_finite_inputs
import Idealize.ShloMosaic.PureOps.Ideal
import Idealize.ShloMosaic.Lib.ReduceAll
import Idealize.ShloMosaic.Lib.ValueIdx

noncomputable section

namespace Cert.Pre_finite_inputs

open Idealize.ShloMosaic Idealize.ShloMosaic.ValueIdx

/-- A one-bit word made from a Boolean is 1 exactly when the Boolean is true. -/
private theorem ofBool_eq_one {b : Bool} : BitVec.ofBool b = 1#1 ↔ b = true := by cases b <;> decide

/-- Under the precondition every entry of the input is a real number. -/
theorem finite_of_pre [Facts] (x : FVec Ideal S8x32x32x64x64 .f32) (h : fn (F := Ideal) x = fun _ => 1#1) :
    ∀ i, ∃ r : ℝ, x i = (r : EReal) := by
  intro i
  have h0 := congrFun h ValueIdx.ix0
  dsimp only [fn] at h0
  haveI : Subsingleton S_.Idx := ⟨fun a b => funext fun d => d.elim0⟩
  have hi := Host.reduce_andi_all _ _ _ _ _ h0 i
  -- the compared word is +∞
  have htop : Ideal.ofBits .f32 0x7F800000#32 = (⊤ : EReal) := by simp [Ideal.ofBits, Ideal.ieee]
  change Ideal.cmp .olt (max (x i) (-(x i))) (Ideal.ofBits .f32 0x7F800000#32) = 1#1 at hi
  rw [htop] at hi
  -- the entry's absolute value is below +∞
  have hlt : max (x i) (-(x i)) < (⊤ : EReal) := of_decide_eq_true (ofBool_eq_one.1 hi)
  obtain ⟨h1, h2⟩ := max_lt_iff.1 hlt
  generalize x i = y at h1 h2 ⊢
  induction y using EReal.rec with
  | bot => simp at h2
  | top => exact absurd h1 (lt_irrefl _)
  | coe r => exact ⟨r, rfl⟩

end Cert.Pre_finite_inputs

end
-- ==== Proof.lean ====
/-
  The certificate of the fused statistics-and-gating kernel against its jnp reference, over the extended reals.

  For an input `X` of shape [8, 32, 32, 64, 64] both programs return `x · σ(y) · σ(y · z · s)` entry by entry, where
  `σ` is the logistic function, `z` and `s` are the means of `X` over the channels and over the batch,
  `y = (x − mu)² / denom + 1/2`, `mu` is the mean over time and space of the entry's (b, c) slab, and
  `denom = 4 · (Σ (x − mu)² / 4095 + 1e-4)` over the same slab.

  The kernel takes two passes.  The first walks the time axis two steps at a time, writes the channel sums and the batch
  sums, and accumulates per slab the sum and the sum of squares; host operations then form `mu` and the denominator
  from `Σ x² − n · mu²` with `n` = 131072 the slab's size; the second pass gates every entry, the two means taken as the
  sums times 1/32 and 1/8.  The reference divides by 32 and by 8 and sums the squared deviations directly.

  Where the two agree: division by 32 (by 8) is multiplication by 1/32 (by 1/8) on every extended real; a finite sum
  does not depend on the order or grouping of its terms; and for REAL entries `Σ (x − mu)² = Σ x² − n · mu²` when
  `mu = (Σ x) / n` — the one place the precondition (every input finite) is used.

  The modules: `Spec` states both results as functions of the input; `Algebra` proves them equal on finite inputs;
  `Finite` reads the precondition; `StatsPieces`, `StatsPay`, `StatsFinal` read the first pass, `HostOps` the host
  operations, `Fuse` the second pass, `RunResult` and `KernelValue` the whole kernel program; `RefValue` reads the
  reference.  The three frames are the generated ones (the reference's is its generated run with the result dropped);
  the idealization rewrote nothing, so `preserves` is trivial.
-/
import proofs.«173700_j35622458753953_1_alg».proof.Defs
import proofs.«173700_j35622458753953_1_alg».proof.Proof.Gen.Kernel
import proofs.«173700_j35622458753953_1_alg».proof.Proof.Gen.Kernel.Skeleton
import proofs.«173700_j35622458753953_1_alg».proof.Proof.Gen.Kernel.Launch
import proofs.«173700_j35622458753953_1_alg».proof.Proof.Gen.Kernel.Points
import proofs.«173700_j35622458753953_1_alg».proof.Proof.Gen.Kernel.Frame
import proofs.«173700_j35622458753953_1_alg».proof.Proof.Gen.KernelIdeal
import proofs.«173700_j35622458753953_1_alg».proof.Proof.Gen.KernelIdeal.Skeleton
import proofs.«173700_j35622458753953_1_alg».proof.Proof.Gen.KernelIdeal.Launch
import proofs.«173700_j35622458753953_1_alg».proof.Proof.Gen.KernelIdeal.Points
import proofs.«173700_j35622458753953_1_alg».proof.Proof.Gen.KernelIdeal.Frame
import proofs.«173700_j35622458753953_1_alg».proof.Proof.Gen.ReferenceIdeal
import proofs.«173700_j35622458753953_1_alg».proof.Proof.Gen.Pre_finite_inputs
import proofs.«173700_j35622458753953_1_alg».proof.Proof.Gen.ReferenceIdeal.Run
import proofs.«173700_j35622458753953_1_alg».proof.Proof.Gen.ReferenceIdeal.Read
import proofs.«173700_j35622458753953_1_alg».proof.Proof.KernelValue
import proofs.«173700_j35622458753953_1_alg».proof.Proof.RefValue
import proofs.«173700_j35622458753953_1_alg».proof.Proof.Algebra
import proofs.«173700_j35622458753953_1_alg».proof.Proof.Finite
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ
theorem frame_ki : @Cert.frame_KernelIdeal Cert.KernelIdeal.Gen.facts Cert.Pre_finite_inputs.Gen.facts :=
  fun m ρ _ => Cert.KernelIdeal.Gen.frame m ρ
/-- The reference has no kernel: its frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both idealized programs end with the kernel's specification of the input: the kernel program by its three segments
    read back, the reference by its operations read at an index and the algebra on the finite input. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.Spec.kerOut (Cert.KernelIdeal.Val.X0 m c), Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.ReferenceIdeal.RefVal.ref_eq, hagree c]
  exact (Cert.Spec.kerOut_eq_refOut _ (Cert.Pre_finite_inputs.finite_of_pre _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
